-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_0)) (v3 : (c : Dev Cert.KernelIdeal.nD) → Buf (Elt Ideal) ((c.tc : Thread Cert.KernelIdeal.nD Cert.KernelIdeal.τ).loc Cert.KernelIdeal.main_v16_1)) (v4 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_0) = v2 c
          ∧ r.2.mem ((c.tc : Thread Cert.KernelIdeal.nD Cert.KernelIdeal.τ).loc Cert.KernelIdeal.main_v16_1) = v3 c
          ∧ r.2.mem ((c.tc : Thread Cert.KernelIdeal.nD Cert.KernelIdeal.τ).loc Cert.KernelIdeal.main_v16_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v130) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x1024 : Shape := ⟨2, ![4096, 1024]⟩
abbrev S32000x1024 : Shape := ⟨2, ![32000, 1024]⟩
abbrev S6x1024x2048 : Shape := ⟨3, ![6, 1024, 2048]⟩
abbrev S6x1024 : Shape := ⟨2, ![6, 1024]⟩
abbrev S32000 : Shape := ⟨1, ![32000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S6x1024x2048 : S_.BroadcastsInDim S6x1024x2048 (![] : Fin 0 → Fin S6x1024x2048.rank)
  reducesTo_S6x1024x2048_S_d0_1_2 : S6x1024x2048.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S32000 : S_.BroadcastsInDim S32000 (![] : Fin 0 → Fin S32000.rank)
  reducesTo_S32000_S_d0 : S32000.ReducesTo [0] S_

variable [Facts]

def fn_part3 {F : FTy → Type} [FloatOps F] (main_v48 : IVec S_ 1) (main_v49 : FVec F S32000 .f32) (main_v50 : FVec F S32000 .f32) : IVec S_ 1 :=
  let main_v51 : IVec S32000 1 := cmpf .olt main_v49 main_v50
  let main_c_19 : IVec S_ 1 := constantI S_ 1 1#1
  let main_v52 : IVec S_ 1 := (fun x v => Host.reduce IntOp.andi x v reducesTo_S32000_S_d0 h_S_) main_v51 main_c_19
  let main_v53 : IVec S_ 1 := andi main_v48 main_v52
  main_v53

def fn_part2 {F : FTy → Type} [FloatOps F] (main_arg8 : FVec F S6x1024x2048 .f32) (main_arg9 : FVec F S6x1024 .f32) (main_arg10 : FVec F S32000x1024 .f32) (main_arg11 : FVec F S32000 .f32) (main_v33 : IVec S_ 1) : IVec S_ 1 :=
  let main_v34 : FVec F S6x1024x2048 .f32 := Host.absf main_arg8
  let main_cst_12 : FVec F S_ .f32 := constant S_ .f32 0x7F800000#32
  let main_v35 : FVec F S6x1024x2048 .f32 := broadcastInDim S6x1024x2048 ![] bcast_S_S6x1024x2048 main_cst_12
  let main_v36 : IVec S6x1024x2048 1 := cmpf .olt main_v34 main_v35
  let main_c_13 : IVec S_ 1 := constantI S_ 1 1#1
  let main_v37 : IVec S_ 1 := (fun x v => Host.reduce IntOp.andi x v reducesTo_S6x1024x2048_S_d0_1_2 h_S_) main_v36 main_c_13
  let main_v38 : IVec S_ 1 := andi main_v33 main_v37
  let main_v39 : FVec F S6x1024 .f32 := Host.absf main_arg9
  let main_cst_14 : FVec F S_ .f32 := constant S_ .f32 0x7F800000#32
  let main_v40 : FVec F S6x1024 .f32 := broadcastInDim S6x1024 ![] bcast_S_S6x1024 main_cst_14
  let main_v41 : IVec S6x1024 1 := cmpf .olt main_v39 main_v40
  let main_c_15 : IVec S_ 1 := constantI S_ 1 1#1
  let main_v42 : IVec S_ 1 := (fun x v => Host.reduce IntOp.andi x v reducesTo_S6x1024_S_d0_1 h_S_) main_v41 main_c_15
  let main_v43 : IVec S_ 1 := andi main_v38 main_v42
  let main_v44 : FVec F S32000x1024 .f32 := Host.absf main_arg10
  let main_cst_16 : FVec F S_ .f32 := constant S_ .f32 0x7F800000#32
  let main_v45 : FVec F S32000x1024 .f32 := broadcastInDim S32000x1024 ![] bcast_S_S32000x1024 main_cst_16
  let main_v46 : IVec S32000x1024 1 := cmpf .olt main_v44 main_v45
  let main_c_17 : IVec S_ 1 := constantI S_ 1 1#1
  let main_v47 : IVec S_ 1 := (fun x v => Host.reduce IntOp.andi x v reducesTo_S32000x1024_S_d0_1 h_S_) main_v46 main_c_17
  let main_v48 : IVec S_ 1 := andi main_v43 main_v47
  let main_v49 : FVec F S32000 .f32 := Host.absf main_arg11
  let main_cst_18 : FVec F S_ .f32 := constant S_ .f32 0x7F800000#32
  let main_v50 : FVec F S32000 .f32 := broadcastInDim S32000 ![] bcast_S_S32000 main_cst_18
  fn_part3 (F := F) main_v48 main_v49 main_v50

def fn_part1 {F : FTy → Type} [FloatOps F] (main_arg5 : FVec F S32000x1024 .f32) (main_arg6 : FVec F S6x1024x2048 .f32) (main_arg7 : FVec F S6x1024 .f32) (main_arg8 : FVec F S6x1024x2048 .f32) (main_arg9 : FVec F S6x1024 .f32) (main_arg10 : FVec F S32000x1024 .f32) (main_arg11 : FVec F S32000 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S32000x1024 .f32 := Host.absf main_arg5
  let main_cst_6 : FVec F S_ .f32 := constant S_ .f32 0x7F800000#32
  let main_v20 : FVec F S32000x1024 .f32 := broadcastInDim S32000x1024 ![] bcast_S_S32000x1024 main_cst_6
  let main_v21 : IVec S32000x1024 1 := cmpf .olt main_v19 main_v20
  let main_c_7 : IVec S_ 1 := constantI S_ 1 1#1
  let main_v22 : IVec S_ 1 := (fun x v => Host.reduce IntOp.andi x v reducesTo_S32000x1024_S_d0_1 h_S_) main_v21 main_c_7
  let main_v23 : IVec S_ 1 := andi main_v18 main_v22
  let main_v24 : FVec F S6x1024x2048 .f32 := Host.absf main_arg6
  let main_cst_8 : FVec F S_ .f32 := constant S_ .f32 0x7F800000#32
  let main_v25 : FVec F S6x1024x2048 .f32 := broadcastInDim S6x1024x2048 ![] bcast_S_S6x1024x2048 main_cst_8
  let main_v26 : IVec S6x1024x2048 1 := cmpf .olt main_v24 main_v25
  let main_c_9 : IVec S_ 1 := constantI S_ 1 1#1
  let main_v27 : IVec S_ 1 := (fun x v => Host.reduce IntOp.andi x v reducesTo_S6x1024x2048_S_d0_1_2 h_S_) main_v26 main_c_9
  let main_v28 : IVec S_ 1 := andi main_v23 main_v27
  let main_v29 : FVec F S6x1024 .f32 := Host.absf main_arg7
  let main_cst_10 : FVec F S_ .f32 := constant S_ .f32 0x7F800000#32
  let main_v30 : FVec F S6x1024 .f32 := broadcastInDim S6x1024 ![] bcast_S_S6x1024 main_cst_10
  let main_v31 : IVec S6x1024 1 := cmpf .olt main_v29 main_v30
  let main_c_11 : IVec S_ 1 := constantI S_ 1 1#1
  let main_v32 : IVec S_ 1 := (fun x v => Host.reduce IntOp.andi x v reducesTo_S6x1024_S_d0_1 h_S_) main_v31 main_c_11
  let main_v33 : IVec S_ 1 := andi main_v28 main_v32
  fn_part2 (F := F) main_arg8 main_arg9 main_arg10 main_arg11 main_v33

def fn {F : FTy → Type} [FloatOps F] (main_arg0 : IVec S4096 32) (main_arg1 : FVec F S4096x1024 .f32) (main_arg2 : FVec F S4096x1024 .f32) (main_arg3 : FVec F S4096x1024 .f32) (main_arg4 : FVec F S4096x1024 .f32) (main_arg5 : FVec F S32000x1024 .f32) (main_arg6 : FVec F S6x1024x2048 .f32) (main_arg7 : FVec F S6x1024 .f32) (main_arg8 : FVec F S6x1024x2048 .f32) (main_arg9 : FVec F S6x1024 .f32) (main_arg10 : FVec F S32000x1024 .f32) (main_arg11 : FVec F S32000 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_arg6 main_arg7 main_arg8 main_arg9 main_arg10 main_arg11 main_v13 main_v16
-- ==== Kernel.lean ====
abbrev S4096 : Shape := ⟨1, ![4096]⟩
abbrev S4096x1024 : Shape := ⟨2, ![4096, 1024]⟩
abbrev S32000x1024 : Shape := ⟨2, ![32000, 1024]⟩
abbrev S6x1024x2048 : Shape := ⟨3, ![6, 1024, 2048]⟩
abbrev S6x1024 : Shape := ⟨2, ![6, 1024]⟩
abbrev S32000 : Shape := ⟨1, ![32000]⟩
abbrev S_ : Shape := ⟨0, ![]⟩
abbrev S4096x1 : Shape := ⟨2, ![4096, 1]⟩
abbrev S6144x2048 : Shape := ⟨2, ![6144, 2048]⟩
abbrev S2048x6144 : Shape := ⟨2, ![2048, 6144]⟩
abbrev S1x6144 : Shape := ⟨2, ![1, 6144]⟩
abbrev S128x1024 : Shape := ⟨2, ![128, 1024]⟩
abbrev S1024x3072 : Shape := ⟨2, ![1024, 3072]⟩
abbrev S128x3072 : Shape := ⟨2, ![128, 3072]⟩
abbrev S1x3072 : Shape := ⟨2, ![1, 3072]⟩
abbrev S1024x32000 : Shape := ⟨2, ![1024, 32000]⟩
abbrev S1x32000 : Shape := ⟨2, ![1, 32000]⟩
abbrev S4096x32000 : Shape := ⟨2, ![4096, 32000]⟩
abbrev S512x1024 : Shape := ⟨2, ![512, 1024]⟩
abbrev S1024x3200 : Shape := ⟨2, ![1024, 3200]⟩
abbrev S1x3200 : Shape := ⟨2, ![1, 3200]⟩
abbrev S512x3200 : Shape := ⟨2, ![512, 3200]⟩

abbrev nBuf : Space → Nat
  | .hbm => 38
  | .vmem => 32
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S32000x1024, .f32⟩
  | .hbm, ⟨6, _⟩ => ⟨S6x1024x2048, .f32⟩
  | .hbm, ⟨7, _⟩ => ⟨S6x1024, .f32⟩
  | .hbm, ⟨8, _⟩ => ⟨S6x1024x2048, .f32⟩
  | .hbm, ⟨9, _⟩ => ⟨S6x1024, .f32⟩
  | .hbm, ⟨10, _⟩ => ⟨S32000x1024, .f32⟩
  | .hbm, ⟨11, _⟩ => ⟨S32000, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1024, .f32⟩
  | .hbm, ⟨21, _⟩ => ⟨S6144x2048, .f32⟩
  | .hbm, ⟨22, _⟩ => ⟨S2048x6144, .f32⟩
  | .hbm, ⟨23, _⟩ => ⟨S2048x6144, .bf16⟩
  | .hbm, ⟨24, _⟩ => ⟨S1x6144, .f32⟩
  | .hbm, ⟨25, _⟩ => ⟨S4096x1024, .f32⟩
  | .hbm, ⟨26, _⟩ => ⟨S4096x1024, .f32⟩
  | .hbm, ⟨27, _⟩ => ⟨S6144x2048, .f32⟩
  | .hbm, ⟨28, _⟩ => ⟨S2048x6144, .f32⟩
  | .hbm, ⟨29, _⟩ => ⟨S2048x6144, .bf16⟩
  | .hbm, ⟨30, _⟩ => ⟨S1x6144, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S1024x32000, .f32⟩
  | .hbm, ⟨35, _⟩ => ⟨S1024x32000, .bf16⟩
  | .hbm, ⟨36, _⟩ => ⟨S1x32000, .f32⟩
  | .hbm, ⟨37, _⟩ => ⟨S4096x32000, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x6144, .bf16⟩
  | .local _ .vmem, ⟨7, _⟩ => ⟨S1x6144, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S2048x6144, .bf16⟩
  | .local _ .vmem, ⟨19, _⟩ => ⟨S1x6144, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S512x1024, .bf16⟩
  | .local _ .vmem, ⟨25, _⟩ => ⟨S512x1024, .bf16⟩
  | .local _ .vmem, ⟨26, _⟩ => ⟨S1024x3200, .bf16⟩
  | .local _ .vmem, ⟨27, _⟩ => ⟨S1024x3200, .bf16⟩
  | .local _ .vmem, ⟨28, _⟩ => ⟨S1x3200, .f32⟩
  | .local _ .vmem, ⟨29, _⟩ => ⟨S1x3200, .f32⟩
  | .local _ .vmem, ⟨30, _⟩ => ⟨S512x3200, .f32⟩
  | .local _ .vmem, ⟨31, _⟩ => ⟨S512x3200, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x6144 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x6144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x3200 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S6x1024x2048_S6144x2048 : S6x1024x2048.ShapeCasts S6144x2048
  transposes_S6144x2048_S2048x6144_1_0 : S6144x2048.Transposes [1, 0] S2048x6144
  bitsLt_bf16_f32 : FTy.bits .bf16 < FTy.bits .f32
  shapeCasts_S6x1024_S1x6144 : S6x1024.ShapeCasts S1x6144
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2048x6144_S1024x3072_0_0 : ∀ a, (![0, 0] : Fin 2 → Nat) a + S1024x3072.size a ≤ S2048x6144.size a
  h_S1024x3072 : 0 < S1024x3072.numel
  shapeCasts_S1024x3072_S1024x3072 : S1024x3072.ShapeCasts S1024x3072
  inb_S2048x6144_S1024x3072_1024_0 : ∀ a, (![1024, 0] : Fin 2 → Nat) a + S1024x3072.size a ≤ S2048x6144.size a
  inb_S1x6144_S1x3072_0_0 : ∀ a, (![0, 0] : Fin 2 → Nat) a + S1x3072.size a ≤ S1x6144.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  inb_S2048x6144_S1024x3072_0_3072 : ∀ a, (![0, 3072] : Fin 2 → Nat) a + S1024x3072.size a ≤ S2048x6144.size a
  inb_S2048x6144_S1024x3072_1024_3072 : ∀ a, (![1024, 3072] : Fin 2 → Nat) a + S1024x3072.size a ≤ S2048x6144.size a
  inb_S1x6144_S1x3072_0_3072 : ∀ a, (![0, 3072] : Fin 2 → Nat) a + S1x3072.size a ≤ S1x6144.size a
  transposes_S32000x1024_S1024x32000_1_0 : S32000x1024.Transposes [1, 0] S1024x32000
  shapeCasts_S32000_S1x32000 : S32000.ShapeCasts S1x32000
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  gather_S32000x1024_S4096x1_S4096x1024_1_0_n_n_0_1_11024_wf : GatherDims.WF S32000x1024 S4096x1 S4096x1024 [1] [0] [] [0] [] 1 ![1, 1024]
  dot_S128x1024_S1024x3072_S128x3072_1_0_0_1_n_n_wf : DotDims.WF S128x1024 S1024x3072 S128x3072 [1] [0] [0] [1] [] []
  dot_S512x1024_S1024x3200_S512x3200_1_0_0_1_n_n_wf : DotDims.WF S512x1024 S1024x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x6144.size a ≤ S2048x6144.size a
  hwx0_3 : ∀ i : grid0.Coords, EltTy.bits .bf16 = 32 ∨ (Rect.block (s := S2048x6144) S2048x6144.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .f32 = 32 ∨ (Rect.block (s := S4096x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .f32 = 32 ∨ (Rect.block (s := S4096x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S4096x1024.size a
  hwx1_2 : ∀ i : grid1.Coords, EltTy.bits .f32 = 32 ∨ (Rect.block (s := S4096x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x6144.size a ≤ S2048x6144.size a
  hwx1_3 : ∀ i : grid1.Coords, EltTy.bits .bf16 = 32 ∨ (Rect.block (s := S2048x6144) S2048x6144.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x6144.size a ≤ S1x6144.size a
  hwx1_4 : ∀ i : grid1.Coords, EltTy.bits .f32 = 32 ∨ (Rect.block (s := S1x6144) S1x6144.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S4096x1024.size a
  hwx1_5 : ∀ i : grid1.Coords, EltTy.bits .f32 = 32 ∨ (Rect.block (s := S4096x1024) S128x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1024.size a ≤ S4096x1024.size a
  hwx1_6 : ∀ i : grid1.Coords, EltTy.bits .f32 = 32 ∨ (Rect.block (s := S4096x1024) S128x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x3200.size a ≤ S1024x32000.size a
  hwx2_1 : ∀ i : grid2.Coords, EltTy.bits .bf16 = 32 ∨ (Rect.block (s := S1024x32000) S1024x3200.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x32000.size a
  hwx2_2 : ∀ i : grid2.Coords, EltTy.bits .f32 = 32 ∨ (Rect.block (s := S1x32000) S1x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x3200.size a ≤ S4096x32000.size a
  hwx2_3 : ∀ i : grid2.Coords, EltTy.bits .f32 = 32 ∨ (Rect.block (s := S4096x32000) S512x3200.size (cc2_transform_3 i) (hinb2_3 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S512x1024_S1024x3200_S512x3200_1_0_0_1_n_n : DotDims S512x1024 S1024x3200 S512x3200 where
  lhsContracting := [1]
  rhsContracting := [0]
  lhsNonContracting := [0]
  rhsNonContracting := [1]
  lhsBatch := []
  rhsBatch := []
  wf := dot_S512x1024_S1024x3200_S512x3200_1_0_0_1_n_n_wf

abbrev win0_0 : Pipeline.Window sig grid0 :=
  Pipeline.Window.ofSpec (Memref.whole main_v6) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x6144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x6144.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x6144.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S128x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S128x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x3200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S512x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096 : Shape := ⟨1, ![4096]⟩
abbrev S4096x1024 : Shape := ⟨2, ![4096, 1024]⟩
abbrev S32000x1024 : Shape := ⟨2, ![32000, 1024]⟩
abbrev S6x1024x2048 : Shape := ⟨3, ![6, 1024, 2048]⟩
abbrev S6x1024 : Shape := ⟨2, ![6, 1024]⟩
abbrev S32000 : Shape := ⟨1, ![32000]⟩
abbrev S_ : Shape := ⟨0, ![]⟩
abbrev S4096x1 : Shape := ⟨2, ![4096, 1]⟩
abbrev S4096x2048 : Shape := ⟨2, ![4096, 2048]⟩
abbrev S3x1024x2048 : Shape := ⟨3, ![3, 1024, 2048]⟩
abbrev S4096x3x1024 : Shape := ⟨3, ![4096, 3, 1024]⟩
abbrev S3x1024 : Shape := ⟨2, ![3, 1024]⟩
abbrev S1x3x1024 : Shape := ⟨3, ![1, 3, 1024]⟩
abbrev S4096x1x1024 : Shape := ⟨3, ![4096, 1, 1024]⟩
abbrev S1024x32000 : Shape := ⟨2, ![1024, 32000]⟩
abbrev S4096x32000 : Shape := ⟨2, ![4096, 32000]⟩
abbrev S1x32000 : Shape := ⟨2, ![1, 32000]⟩

abbrev nBuf : Space → Nat
  | .hbm => 170
  | .vmem => 0
  | .smem => 0
  | _ => 0

abbrev hbmTy0_0 (i : Nat) : BufTy := match i % 128 with
  | 0 => ⟨S4096, .i32⟩
  | 1 => ⟨S4096x1024, .f32⟩
  | 2 => ⟨S4096x1024, .f32⟩
  | 3 => ⟨S4096x1024, .f32⟩
  | 4 => ⟨S4096x1024, .f32⟩
  | 5 => ⟨S32000x1024, .f32⟩
  | 6 => ⟨S6x1024x2048, .f32⟩
  | 7 => ⟨S6x1024, .f32⟩
  | 8 => ⟨S6x1024x2048, .f32⟩
  | 9 => ⟨S6x1024, .f32⟩
  | 10 => ⟨S32000x1024, .f32⟩
  | 11 => ⟨S32000, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x1024, .f32⟩
  | 21 => ⟨S4096x2048, .f32⟩
  | 22 => ⟨S3x1024x2048, .f32⟩
  | 23 => ⟨S4096x3x1024, .f32⟩
  | 24 => ⟨S3x1024, .f32⟩
  | 25 => ⟨S1x3x1024, .f32⟩
  | 26 => ⟨S4096x3x1024, .f32⟩
  | 27 => ⟨S4096x3x1024, .f32⟩
  | 28 => ⟨S4096x1x1024, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1x1024, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x2048, .f32⟩
  | 58 => ⟨S3x1024x2048, .f32⟩
  | 59 => ⟨S4096x3x1024, .f32⟩
  | 60 => ⟨S3x1024, .f32⟩
  | 61 => ⟨S1x3x1024, .f32⟩
  | 62 => ⟨S4096x3x1024, .f32⟩
  | 63 => ⟨S4096x3x1024, .f32⟩
  | 64 => ⟨S4096x1x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x2048, .f32⟩
  | 94 => ⟨S3x1024x2048, .f32⟩
  | 95 => ⟨S4096x3x1024, .f32⟩
  | 96 => ⟨S3x1024, .f32⟩
  | 97 => ⟨S1x3x1024, .f32⟩
  | 98 => ⟨S4096x3x1024, .f32⟩
  | 99 => ⟨S4096x3x1024, .f32⟩
  | 100 => ⟨S4096x1x1024, .f32⟩
  | 101 => ⟨S4096x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S4096x1x1024, .f32⟩
  | 111 => ⟨S4096x1024, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S4096x1x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096, .i32⟩

abbrev hbmTy0_1 (i : Nat) : BufTy := match i % 128 with
  | 0 => ⟨S4096x1024, .f32⟩
  | 1 => ⟨S4096x2048, .f32⟩
  | 2 => ⟨S3x1024x2048, .f32⟩
  | 3 => ⟨S4096x3x1024, .f32⟩
  | 4 => ⟨S3x1024, .f32⟩
  | 5 => ⟨S1x3x1024, .f32⟩
  | 6 => ⟨S4096x3x1024, .f32⟩
  | 7 => ⟨S4096x3x1024, .f32⟩
  | 8 => ⟨S4096x1x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S1024x32000, .f32⟩
  | 38 => ⟨S4096x32000, .f32⟩
  | 39 => ⟨S1x32000, .f32⟩
  | 40 => ⟨S4096x32000, .f32⟩
  | 41 => ⟨S4096x32000, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_14 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_15 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_17 : Ref sig .tc := ⟨.hbm, 150, rfl⟩
abbrev main_v119 : Ref sig .tc := ⟨.hbm, 151, rfl⟩
abbrev main_v120 : Ref sig .tc := ⟨.hbm, 152, rfl⟩
abbrev main_cst_18 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_19 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1024_S4096x1024_S4096x2048_d1 : Shape.Concatenates [S4096x1024, S4096x1024] S4096x2048 1
  slices_S6x1024x2048_S3x1024x2048_0_0_0 : S6x1024x2048.Slices ![0, 0, 0] S3x1024x2048
  slices_S6x1024_S3x1024_0_0 : S6x1024.Slices ![0, 0] S3x1024
  bcast_S3x1024_S1x3x1024_1_2 : S3x1024.BroadcastsInDim S1x3x1024 (![1, 2] : Fin 2 → Fin S1x3x1024.rank)
  bcast_S1x3x1024_S4096x3x1024_0_1_2 : S1x3x1024.BroadcastsInDim S4096x3x1024 (![0, 1, 2] : Fin 3 → Fin S4096x3x1024.rank)
  slices_S4096x3x1024_S4096x1x1024_0_0_0 : S4096x3x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x3x1024_S4096x1x1024_0_1_0 : S4096x3x1024.Slices ![0, 1, 0] S4096x1x1024
  slices_S4096x3x1024_S4096x1x1024_0_2_0 : S4096x3x1024.Slices ![0, 2, 0] S4096x1x1024
  slices_S6x1024x2048_S3x1024x2048_3_0_0 : S6x1024x2048.Slices ![3, 0, 0] S3x1024x2048
  slices_S6x1024_S3x1024_3_0 : S6x1024.Slices ![3, 0] S3x1024
  transposes_S32000x1024_S1024x32000_1_0 : S32000x1024.Transposes [1, 0] S1024x32000
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  gather_S32000x1024_S4096x1_S4096x1024_1_0_n_n_0_1_11024_wf : GatherDims.WF S32000x1024 S4096x1 S4096x1024 [1] [0] [] [0] [] 1 ![1, 1024]
  dot_S4096x2048_S3x1024x2048_S4096x3x1024_1_2_0_01_n_n_wf : DotDims.WF S4096x2048 S3x1024x2048 S4096x3x1024 [1] [2] [0] [0, 1] [] []
  dot_S4096x1024_S1024x32000_S4096x32000_1_0_0_1_n_n_wf : DotDims.WF S4096x1024 S1024x32000 S4096x32000 [1] [0] [0] [1] [] []

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S4096x2048_S3x1024x2048_S4096x3x1024_1_2_0_01_n_n : DotDims S4096x2048 S3x1024x2048 S4096x3x1024 where
  lhsContracting := [1]
  rhsContracting := [2]
  lhsNonContracting := [0]
  rhsNonContracting := [0, 1]
  lhsBatch := []
  rhsBatch := []
  wf := dot_S4096x2048_S3x1024x2048_S4096x3x1024_1_2_0_01_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf

class Facts : Prop extends Facts₀ where

variable [Facts]
-- ==== Proof.Spec.lean ====
/-
  The mathematics both programs compute, as scalar formulas over the extended reals.

  A reversible gated cell takes a row `x` of inputs, a carried cell row `c` and a hidden row `h`, six weight
  matrices `W g` (each 1024 × 2048: the first 1024 columns meet `x`, the last 1024 meet the second operand) and six
  bias rows `b g`. Gate `g`'s pre-activation at unit `j` is
      pre g j = Σ_k x k · W g j k  +  Σ_k y k · W g j (1024 + k)  +  b g j,
  with `y = h` for gates 0–2 and `y = c'` (the new cell row) for gates 3–5. Then
      c' j = (σ(pre 0 j) · c j + σ(pre 1 j) · tanh(pre 2 j)) · ½,
      h' j = (σ(pre 4 j) · h j + σ(pre 3 j) · tanh(pre 5 j)) · ½.
  The model stacks two such cells on an embedded row and projects the second hidden row onto the vocabulary.
  The one law used between the two programs' arrangements is that a sum over 2048 terms is the sum of its two halves
  (`sum_halves`); it needs only commutativity and associativity of addition, so no input is assumed finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- batch × hidden -/
abbrev SBH : Shape := ⟨2, ![4096, 1024]⟩
/-- six gates × hidden × (input ++ second operand) -/
abbrev SW : Shape := ⟨3, ![6, 1024, 2048]⟩
/-- six gates × hidden -/
abbrev SB : Shape := ⟨2, ![6, 1024]⟩
/-- vocabulary × hidden -/
abbrev SV : Shape := ⟨2, ![32000, 1024]⟩
/-- vocabulary -/
abbrev SVb : Shape := ⟨1, ![32000]⟩
/-- batch × vocabulary -/
abbrev SO : Shape := ⟨2, ![4096, 32000]⟩

/-- The literal ½ both programs multiply by (the same word on both sides: never evaluated). -/
def half : EReal := Ideal.ofBits .f32 0x3F000000#32

/-- A column index of the first half of a weight matrix's 2048 columns. -/
abbrev lo (k : Fin 1024) : Fin 2048 := ⟨k.val, by omega⟩
/-- A column index of the second half. -/
abbrev hi (k : Fin 1024) : Fin 2048 := ⟨1024 + k.val, by omega⟩

/-- Gate `g`'s pre-activation at row `r`, unit `j`: the input row against the first half of the gate's weight row, the
    second operand's row against the second half, plus the bias. -/
def pre (x y : SBH.Idx → EReal) (W : SW.Idx → EReal) (b : SB.Idx → EReal) (g : Fin 6) (r : Fin 4096) (j : Fin 1024) : EReal :=
  (∑ k : Fin 1024, x (ix2 r k) * W (ix3 g j (lo k))) + (∑ k : Fin 1024, y (ix2 r k) * W (ix3 g j (hi k))) + b (ix2 g j)

/-- One gated update: `(σ(a) · prev + σ(i) · tanh(t)) · ½`. -/
def mix (a i t prev : EReal) : EReal := (Ideal.logistic a * prev + Ideal.logistic i * Ideal.tanh t) * half

/-- The new cell value at row `r`, unit `j`: gates 0, 1, 2 over `(x, h)`, mixing into `c`. -/
def newCAt (x c h : SBH.Idx → EReal) (W : SW.Idx → EReal) (b : SB.Idx → EReal) (r : Fin 4096) (j : Fin 1024) : EReal :=
  mix (pre x h W b 0 r j) (pre x h W b 1 r j) (pre x h W b 2 r j) (c (ix2 r j))

/-- The new cell array. -/
def newC (x c h : SBH.Idx → EReal) (W : SW.Idx → EReal) (b : SB.Idx → EReal) : SBH.Idx → EReal := fun i =>
  newCAt x c h W b (i 0) (i 1)

/-- The new hidden value at row `r`, unit `j`: gates 4, 3, 5 over `(x, c')`, mixing into `h`. -/
def newHAt (x c h : SBH.Idx → EReal) (W : SW.Idx → EReal) (b : SB.Idx → EReal) (r : Fin 4096) (j : Fin 1024) : EReal :=
  mix (pre x (newC x c h W b) W b 4 r j) (pre x (newC x c h W b) W b 3 r j) (pre x (newC x c h W b) W b 5 r j) (h (ix2 r j))

/-- The new hidden array. -/
def newH (x c h : SBH.Idx → EReal) (W : SW.Idx → EReal) (b : SB.Idx → EReal) : SBH.Idx → EReal := fun i =>
  newHAt x c h W b (i 0) (i 1)

/-- The projection onto the vocabulary at row `r`, token `n`: the row against vocabulary row `n`, plus its bias. -/
def decodeAt (a : SBH.Idx → EReal) (Wd : SV.Idx → EReal) (bd : SVb.Idx → EReal) (r : Fin 4096) (n : Fin 32000) : EReal :=
  (∑ k : Fin 1024, a (ix2 r k) * Wd (ix2 n k)) + bd (ix1 n)

/-- The projected array. -/
def decode (a : SBH.Idx → EReal) (Wd : SV.Idx → EReal) (bd : SVb.Idx → EReal) : SO.Idx → EReal := fun i =>
  decodeAt a Wd bd (i 0) (i 1)

theorem newC_apply (x c h : SBH.Idx → EReal) (W : SW.Idx → EReal) (b : SB.Idx → EReal) (r : Fin 4096) (j : Fin 1024) :
    newC x c h W b (ix2 r j) = newCAt x c h W b r j := rfl
theorem newH_apply (x c h : SBH.Idx → EReal) (W : SW.Idx → EReal) (b : SB.Idx → EReal) (r : Fin 4096) (j : Fin 1024) :
    newH x c h W b (ix2 r j) = newHAt x c h W b r j := rfl
theorem decode_apply (a : SBH.Idx → EReal) (Wd : SV.Idx → EReal) (bd : SVb.Idx → EReal) (r : Fin 4096) (n : Fin 32000) :
    decode a Wd bd (ix2 r n) = decodeAt a Wd bd r n := rfl

/-! ## The model: two cells stacked on an embedded array `e`, then the projection -/

/-- The second cell's new cell array: the second cell's input is the first cell's new hidden array. -/
def cell2C (e c1 h1 c2 h2 : SBH.Idx → EReal) (W1 : SW.Idx → EReal) (b1 : SB.Idx → EReal) (W2 : SW.Idx → EReal) (b2 : SB.Idx → EReal) :
    SBH.Idx → EReal := newC (newH e c1 h1 W1 b1) c2 h2 W2 b2

/-- The second cell's new hidden array. -/
def cell2H (e c1 h1 c2 h2 : SBH.Idx → EReal) (W1 : SW.Idx → EReal) (b1 : SB.Idx → EReal) (W2 : SW.Idx → EReal) (b2 : SB.Idx → EReal) :
    SBH.Idx → EReal := newH (newH e c1 h1 W1 b1) c2 h2 W2 b2

/-- The projected array of the whole model. -/
def logits (e c1 h1 c2 h2 : SBH.Idx → EReal) (W1 : SW.Idx → EReal) (b1 : SB.Idx → EReal) (W2 : SW.Idx → EReal) (b2 : SB.Idx → EReal)
    (Wd : SV.Idx → EReal) (bd : SVb.Idx → EReal) : SO.Idx → EReal := decode (cell2H e c1 h1 c2 h2 W1 b1 W2 b2) Wd bd

/-! ## The same formulas over the weights as the kernels are handed them: transposed and flattened

A kernel reads the six weight matrices as ONE array of 2048 rows (the contracted axis) and 6 · 1024 columns (gate
`g`, unit `j` at column `g · 1024 + j`), the six bias rows as one row of 6 · 1024, and the vocabulary matrix
transposed. The formulas are the ones above with the weight read at the moved index. -/

/-- (input ++ second operand) × (six gates · hidden) -/
abbrev SWt : Shape := ⟨2, ![2048, 6144]⟩
/-- one row × (six gates · hidden) -/
abbrev SBt : Shape := ⟨2, ![1, 6144]⟩
/-- hidden × vocabulary -/
abbrev SVt : Shape := ⟨2, ![1024, 32000]⟩
/-- one row × vocabulary -/
abbrev SVbt : Shape := ⟨2, ![1, 32000]⟩

/-- Gate `g`, unit `j` as a column of the flattened weights. -/
abbrev gcol (g : Fin 6) (j : Fin 1024) : Fin 6144 := ⟨g.val * 1024 + j.val, by omega⟩

/-- `pre` over the transposed, flattened weights. -/
def preT (x y : SBH.Idx → EReal) (Wt : SWt.Idx → EReal) (bt : SBt.Idx → EReal) (g : Fin 6) (r : Fin 4096) (j : Fin 1024) : EReal :=
  (∑ k : Fin 1024, x (ix2 r k) * Wt (ix2 (lo k) (gcol g j))) + (∑ k : Fin 1024, y (ix2 r k) * Wt (ix2 (hi k) (gcol g j)))
    + bt (ix2 (0 : Fin 1) (gcol g j))

/-- `newCAt` over the transposed, flattened weights. -/
def newCTAt (x c h : SBH.Idx → EReal) (Wt : SWt.Idx → EReal) (bt : SBt.Idx → EReal) (r : Fin 4096) (j : Fin 1024) : EReal :=
  mix (preT x h Wt bt 0 r j) (preT x h Wt bt 1 r j) (preT x h Wt bt 2 r j) (c (ix2 r j))

/-- `newC` over the transposed, flattened weights. -/
def newCT (x c h : SBH.Idx → EReal) (Wt : SWt.Idx → EReal) (bt : SBt.Idx → EReal) : SBH.Idx → EReal := fun i =>
  newCTAt x c h Wt bt (i 0) (i 1)

/-- `newHAt` over the transposed, flattened weights. -/
def newHTAt (x c h : SBH.Idx → EReal) (Wt : SWt.Idx → EReal) (bt : SBt.Idx → EReal) (r : Fin 4096) (j : Fin 1024) : EReal :=
  mix (preT x (newCT x c h Wt bt) Wt bt 4 r j) (preT x (newCT x c h Wt bt) Wt bt 3 r j) (preT x (newCT x c h Wt bt) Wt bt 5 r j)
    (h (ix2 r j))

/-- `newH` over the transposed, flattened weights. -/
def newHT (x c h : SBH.Idx → EReal) (Wt : SWt.Idx → EReal) (bt : SBt.Idx → EReal) : SBH.Idx → EReal := fun i =>
  newHTAt x c h Wt bt (i 0) (i 1)

/-- `decodeAt` over the transposed vocabulary matrix and the bias as a row. -/
def decodeTAt (a : SBH.Idx → EReal) (Wdt : SVt.Idx → EReal) (bdt : SVbt.Idx → EReal) (r : Fin 4096) (n : Fin 32000) : EReal :=
  (∑ k : Fin 1024, a (ix2 r k) * Wdt (ix2 k n)) + bdt (ix2 (0 : Fin 1) n)

/-- `decode` over the transposed vocabulary matrix and the bias as a row. -/
def decodeT (a : SBH.Idx → EReal) (Wdt : SVt.Idx → EReal) (bdt : SVbt.Idx → EReal) : SO.Idx → EReal := fun i =>
  decodeTAt a Wdt bdt (i 0) (i 1)

theorem newCT_apply (x c h : SBH.Idx → EReal) (Wt : SWt.Idx → EReal) (bt : SBt.Idx → EReal) (r : Fin 4096) (j : Fin 1024) :
    newCT x c h Wt bt (ix2 r j) = newCTAt x c h Wt bt r j := rfl
theorem newHT_apply (x c h : SBH.Idx → EReal) (Wt : SWt.Idx → EReal) (bt : SBt.Idx → EReal) (r : Fin 4096) (j : Fin 1024) :
    newHT x c h Wt bt (ix2 r j) = newHTAt x c h Wt bt r j := rfl
theorem decodeT_apply (a : SBH.Idx → EReal) (Wdt : SVt.Idx → EReal) (bdt : SVbt.Idx → EReal) (r : Fin 4096) (n : Fin 32000) :
    decodeT a Wdt bdt (ix2 r n) = decodeTAt a Wdt bdt r n := rfl

theorem preT_eq {x y : SBH.Idx → EReal} {Wt : SWt.Idx → EReal} {bt : SBt.Idx → EReal} {W : SW.Idx → EReal} {b : SB.Idx → EReal}
    (hW : ∀ (g : Fin 6) (j : Fin 1024) (k : Fin 2048), Wt (ix2 k (gcol g j)) = W (ix3 g j k))
    (hb : ∀ (g : Fin 6) (j : Fin 1024), bt (ix2 (0 : Fin 1) (gcol g j)) = b (ix2 g j)) (g : Fin 6) (r : Fin 4096) (j : Fin 1024) :
    preT x y Wt bt g r j = pre x y W b g r j := by
  unfold preT pre
  rw [hb]
  simp only [hW]

theorem newCT_eq {x c h : SBH.Idx → EReal} {Wt : SWt.Idx → EReal} {bt : SBt.Idx → EReal} {W : SW.Idx → EReal} {b : SB.Idx → EReal}
    (hW : ∀ (g : Fin 6) (j : Fin 1024) (k : Fin 2048), Wt (ix2 k (gcol g j)) = W (ix3 g j k))
    (hb : ∀ (g : Fin 6) (j : Fin 1024), bt (ix2 (0 : Fin 1) (gcol g j)) = b (ix2 g j)) :
    newCT x c h Wt bt = newC x c h W b := by
  funext i
  obtain ⟨r, j, rfl⟩ : ∃ (r : Fin 4096) (j : Fin 1024), i = ix2 r j := ⟨i 0, i 1, eq_ix2 i⟩
  show newCTAt x c h Wt bt r j = newCAt x c h W b r j
  unfold newCTAt newCAt
  simp only [preT_eq hW hb]

theorem newHT_eq {x c h : SBH.Idx → EReal} {Wt : SWt.Idx → EReal} {bt : SBt.Idx → EReal} {W : SW.Idx → EReal} {b : SB.Idx → EReal}
    (hW : ∀ (g : Fin 6) (j : Fin 1024) (k : Fin 2048), Wt (ix2 k (gcol g j)) = W (ix3 g j k))
    (hb : ∀ (g : Fin 6) (j : Fin 1024), bt (ix2 (0 : Fin 1) (gcol g j)) = b (ix2 g j)) :
    newHT x c h Wt bt = newH x c h W b := by
  funext i
  obtain ⟨r, j, rfl⟩ : ∃ (r : Fin 4096) (j : Fin 1024), i = ix2 r j := ⟨i 0, i 1, eq_ix2 i⟩
  show newHTAt x c h Wt bt r j = newHAt x c h W b r j
  unfold newHTAt newHAt
  rw [newCT_eq hW hb]
  simp only [preT_eq hW hb]

theorem decodeT_eq {a : SBH.Idx → EReal} {Wdt : SVt.Idx → EReal} {bdt : SVbt.Idx → EReal} {Wd : SV.Idx → EReal} {bd : SVb.Idx → EReal}
    (hW : ∀ (n : Fin 32000) (k : Fin 1024), Wdt (ix2 k n) = Wd (ix2 n k))
    (hb : ∀ n : Fin 32000, bdt (ix2 (0 : Fin 1) n) = bd (ix1 n)) :
    decodeT a Wdt bdt = decode a Wd bd := by
  funext i
  obtain ⟨r, n, rfl⟩ : ∃ (r : Fin 4096) (n : Fin 32000), i = ix2 r n := ⟨i 0, i 1, eq_ix2 i⟩
  show decodeTAt a Wdt bdt r n = decodeAt a Wd bd r n
  unfold decodeTAt decodeAt
  rw [hb]
  simp only [hW]

/-- A sum over 2048 terms is the sum over its first 1024 plus the sum over its last 1024. -/
theorem sum_halves {M : Type*} [AddCommMonoid M] (f : Fin 2048 → M) :
    ∑ d : Fin 2048, f d = (∑ k : Fin 1024, f (lo k)) + ∑ k : Fin 1024, f (hi k) := by
  have h := Fin.sum_univ_add (a := 1024) (b := 1024) (fun d : Fin (1024 + 1024) => f d)
  refine h.trans ?_
  rfl

end Cert.Spec

end
-- ==== Proof.CellBody.lean ====
/-
  The cell kernel's two stored values at an index of their block.

  The body reads a block of 128 rows of `x`, `c` and `h`, four 1024 × 3072 quarters of the flattened weights and two
  halves of the bias row. Its first stored value (the new cell block) is, at row `p`, unit `q`,
  `mix (z₀) (z₁) (z₂) (c p q)` with `z_g = Σ_k x p k · wx k (g·1024+q) + Σ_k h p k · wh k (g·1024+q) + bias (g·1024+q)`:
  two matrix products into a zero accumulator are plain sums, the bias row is broadcast down the rows, the three gates
  are the three 1024-wide column slices. The second (the new hidden block) is the same over `(x, c')` with the other
  two weight quarters and the other bias half, the first two gates exchanged.
-/
import proofs.«113015_j28484223107779_1_alg».proof.Proof.Gen.KernelIdeal.Skeleton
import proofs.«113015_j28484223107779_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellBody

open Cert.KernelIdeal Cert.KernelIdeal.Gen Idealize.ShloMosaic Idealize.ShloMosaic.ValueIdx Cert.Spec

/-- Gate `g` (of three), unit `q` as a column of a 3072-wide block. -/
abbrev col3 (g : Fin 3) (q : Fin 1024) : Fin 3072 := ⟨g.val * 1024 + q.val, by omega⟩

/-- A gate's pre-activation over one block of rows: the rows of `xb` against the columns of `wx`, the rows of `yb`
    against the columns of `wy`, plus the bias row. -/
def bpre (xb yb : S128x1024.Idx → EReal) (wx wy : S1024x3072.Idx → EReal) (bias : S1x3072.Idx → EReal)
    (g : Fin 3) (p : Fin 128) (q : Fin 1024) : EReal :=
  (∑ k : Fin 1024, xb (ix2 p k) * wx (ix2 k (col3 g q))) + (∑ k : Fin 1024, yb (ix2 p k) * wy (ix2 k (col3 g q)))
    + bias (ix2 (0 : Fin 1) (col3 g q))

/-! ## The block product at an index -/

/-- The product's operand indices at output index `j` = (row, column) and contraction index `k`: (row, k) on the left,
    (k, column) on the right, coordinate by coordinate. -/
private theorem lhs_0 (j : S128x3072.Idx) (k : dot_S128x1024_S1024x3072_S128x3072_1_0_0_1_n_n.contr.Idx) :
    (dot_S128x1024_S1024x3072_S128x3072_1_0_0_1_n_n.lhsIdx j k 0 : ℕ) = j 0 := by
  simp [DotDims.lhsIdx, dot_S128x1024_S1024x3072_S128x3072_1_0_0_1_n_n]; rfl
private theorem lhs_1 (j : S128x3072.Idx) (k : dot_S128x1024_S1024x3072_S128x3072_1_0_0_1_n_n.contr.Idx) :
    (dot_S128x1024_S1024x3072_S128x3072_1_0_0_1_n_n.lhsIdx j k 1 : ℕ) = k ⟨0, by decide⟩ := by
  simp [DotDims.lhsIdx, dot_S128x1024_S1024x3072_S128x3072_1_0_0_1_n_n]; rfl
private theorem rhs_0 (j : S128x3072.Idx) (k : dot_S128x1024_S1024x3072_S128x3072_1_0_0_1_n_n.contr.Idx) :
    (dot_S128x1024_S1024x3072_S128x3072_1_0_0_1_n_n.rhsIdx j k 0 : ℕ) = k ⟨0, by decide⟩ := by
  simp [DotDims.rhsIdx, dot_S128x1024_S1024x3072_S128x3072_1_0_0_1_n_n]; rfl
private theorem rhs_1 (j : S128x3072.Idx) (k : dot_S128x1024_S1024x3072_S128x3072_1_0_0_1_n_n.contr.Idx) :
    (dot_S128x1024_S1024x3072_S128x3072_1_0_0_1_n_n.rhsIdx j k 1 : ℕ) = j 1 := by
  simp [DotDims.rhsIdx, dot_S128x1024_S1024x3072_S128x3072_1_0_0_1_n_n]; rfl

/-- A block product into the zero accumulator, at row `p`, column `n`: the sum over the contracted coordinate of the
    products of the entries. -/
private theorem mm_apply (l : S128x1024.Idx → EReal) (r : S1024x3072.Idx → EReal) (p : Fin 128) (n : Fin 3072) :
    matmul (F := Ideal) (φ₁ := .bf16) (φ₂ := .bf16) dot_S128x1024_S1024x3072_S128x3072_1_0_0_1_n_n none l r
        (constant S128x3072 .f32 0x00000000#32) (ix2 p n)
      = ∑ k : Fin 1024, l (ix2 p k) * r (ix2 k n) := by
  show FloatOps.matmul (F := Ideal) (φ₁ := .bf16) (φ₂ := .bf16) dot_S128x1024_S1024x3072_S128x3072_1_0_0_1_n_n none l r _
      (ix2 p n) = _
  rw [Ideal.matmul_constant_zero_apply,
    ← Equiv.sum_comp (contrEquiv1 dot_S128x1024_S1024x3072_S128x3072_1_0_0_1_n_n 1024 rfl rfl).symm]
  refine Finset.sum_congr rfl fun c _ => ?_
  have c2 := contrEquiv1_symm_val dot_S128x1024_S1024x3072_S128x3072_1_0_0_1_n_n 1024 rfl rfl c
  have l2 : dot_S128x1024_S1024x3072_S128x3072_1_0_0_1_n_n.lhsIdx (ix2 p n)
      ((contrEquiv1 dot_S128x1024_S1024x3072_S128x3072_1_0_0_1_n_n 1024 rfl rfl).symm c) = ix2 p c := by
    apply Shape.idx_ext₂
    · exact lhs_0 _ _
    · exact (lhs_1 _ _).trans c2
  have r2 : dot_S128x1024_S1024x3072_S128x3072_1_0_0_1_n_n.rhsIdx (ix2 p n)
      ((contrEquiv1 dot_S128x1024_S1024x3072_S128x3072_1_0_0_1_n_n 1024 rfl rfl).symm c) = ix2 c n := by
    apply Shape.idx_ext₂
    · exact (rhs_0 _ _).trans c2
    · exact rhs_1 _ _
  rw [l2, r2]

/-! ## The three gates' pre-activations as one 3072-wide block, and its three column slices -/

/-- Two block products into zero accumulators plus the bias row broadcast down the rows, at row `p`, column `n`. -/
private theorem z_apply (xb yb : S128x1024.Idx → EReal) (wx wy : S1024x3072.Idx → EReal) (bias : S1x3072.Idx → EReal)
    (p : Fin 128) (n : Fin 3072) :
    addf (F := Ideal) (φ := .f32)
        (addf (matmul (F := Ideal) (φ₁ := .bf16) (φ₂ := .bf16) dot_S128x1024_S1024x3072_S128x3072_1_0_0_1_n_n none xb wx
            (constant S128x3072 .f32 0x00000000#32))
          (matmul (F := Ideal) (φ₁ := .bf16) (φ₂ := .bf16) dot_S128x1024_S1024x3072_S128x3072_1_0_0_1_n_n none yb wy
            (constant S128x3072 .f32 0x00000000#32)))
        (broadcastTo S128x3072 bias broadcasts_S1x3072_S128x3072) (ix2 p n)
      = (∑ k : Fin 1024, xb (ix2 p k) * wx (ix2 k n)) + (∑ k : Fin 1024, yb (ix2 p k) * wy (ix2 k n))
        + bias (ix2 (0 : Fin 1) n) := by
  rw [addf_apply, addf_apply, mm_apply, mm_apply, broadcastTo_1b_ab_apply]

/-- The first 1024 columns of a 3072-wide block are gate 0's. -/
private theorem slice0_apply (Z : S128x3072.Idx → EReal) (p : Fin 128) (q : Fin 1024) :
    extractStridedSlice S128x1024 ![0, 0] Z slices_S128x3072_o0_0_S128x1024 (ix2 p q) = Z (ix2 p (col3 0 q)) :=
  slice2_axis1_apply 0 Z slices_S128x3072_o0_0_S128x1024 p q (col3 0 q) (by show 0 * 1024 + q.val = 0 + q.val; omega)
/-- The next 1024 are gate 1's. -/
private theorem slice1_apply (Z : S128x3072.Idx → EReal) (p : Fin 128) (q : Fin 1024) :
    extractStridedSlice S128x1024 ![0, 1024] Z slices_S128x3072_o0_1024_S128x1024 (ix2 p q) = Z (ix2 p (col3 1 q)) :=
  slice2_axis1_apply 1024 Z slices_S128x3072_o0_1024_S128x1024 p q (col3 1 q) (by show 1 * 1024 + q.val = 1024 + q.val; omega)
/-- The last 1024 are gate 2's. -/
private theorem slice2_apply (Z : S128x3072.Idx → EReal) (p : Fin 128) (q : Fin 1024) :
    extractStridedSlice S128x1024 ![0, 2048] Z slices_S128x3072_o0_2048_S128x1024 (ix2 p q) = Z (ix2 p (col3 2 q)) :=
  slice2_axis1_apply 2048 Z slices_S128x3072_o0_2048_S128x1024 p q (col3 2 q) (by show 2 * 1024 + q.val = 2048 + q.val; omega)

/-- The lane-wise part of a cell update: `(σ(A) · prev + σ(B) · tanh(C)) · ½` at an index. -/
private theorem gates_apply (A B C prev : S128x1024.Idx → EReal) (i : S128x1024.Idx) :
    mulf (F := Ideal) (φ := .f32) (addf (mulf (logistic A) prev) (mulf (logistic B) (tanh C)))
        (broadcast S128x1024 (Scalar.ofBits (F := Ideal) .f32 0x3F000000#32)) i
      = mix (A i) (B i) (C i) (prev i) := rfl

/-- The new cell block at an index. -/
theorem pay3_apply (v0 v2 v3 : S128x1024.Idx → EReal) (v6 v8 : S1024x3072.Idx → EReal) (v13 : S1x3072.Idx → EReal)
    (p : Fin 128) (q : Fin 1024) :
    k0_pay3 (F := Ideal) v0 v2 v3 v6 v8 v13 (ix2 p q)
      = mix (bpre v0 v3 v6 v8 v13 0 p q) (bpre v0 v3 v6 v8 v13 1 p q) (bpre v0 v3 v6 v8 v13 2 p q) (v2 (ix2 p q)) := by
  unfold k0_pay3 k0_pay2
  refine (gates_apply _ _ _ _ _).trans ?_
  rw [slice0_apply, slice1_apply, slice2_apply]
  simp only [shapeCast_self]
  rw [z_apply, z_apply, z_apply]
  simp only [truncf_apply]
  rfl

/-- The new hidden block at an index. -/
theorem pay1_apply (v0 v2 v3 : S128x1024.Idx → EReal) (v6 v8 : S1024x3072.Idx → EReal) (v13 : S1x3072.Idx → EReal)
    (v29 v31 : S1024x3072.Idx → EReal) (v36 : S1x3072.Idx → EReal) (p : Fin 128) (q : Fin 1024) :
    k0_pay1 (F := Ideal) v3 (k0_pay4 (F := Ideal) v0 v2 v3 v6 v8 v13 v29 v31) v36 (ix2 p q)
      = mix (bpre v0 (k0_pay3 (F := Ideal) v0 v2 v3 v6 v8 v13) v29 v31 v36 1 p q)
          (bpre v0 (k0_pay3 (F := Ideal) v0 v2 v3 v6 v8 v13) v29 v31 v36 0 p q)
          (bpre v0 (k0_pay3 (F := Ideal) v0 v2 v3 v6 v8 v13) v29 v31 v36 2 p q) (v3 (ix2 p q)) := by
  unfold k0_pay1 k0_pay4 k0_pay2
  refine (gates_apply _ _ _ _ _).trans ?_
  rw [slice1_apply, slice0_apply, slice2_apply]
  simp only [shapeCast_self]
  rw [z_apply, z_apply, z_apply]
  simp only [truncf_apply]
  rfl

/-- The second cell's body is the first's, word for word. -/
theorem k1_pay3_eq : @k1_pay3 Ideal _ = @k0_pay3 Ideal _ := rfl
theorem k1_pay4_eq : @k1_pay4 Ideal _ = @k0_pay4 Ideal _ := rfl
theorem k1_pay1_eq : @k1_pay1 Ideal _ = @k0_pay1 Ideal _ := rfl

/-- The second cell's new cell block at an index. -/
theorem pay3_apply1 (v0 v2 v3 : S128x1024.Idx → EReal) (v6 v8 : S1024x3072.Idx → EReal) (v13 : S1x3072.Idx → EReal)
    (p : Fin 128) (q : Fin 1024) :
    k1_pay3 (F := Ideal) v0 v2 v3 v6 v8 v13 (ix2 p q)
      = mix (bpre v0 v3 v6 v8 v13 0 p q) (bpre v0 v3 v6 v8 v13 1 p q) (bpre v0 v3 v6 v8 v13 2 p q) (v2 (ix2 p q)) := by
  rw [k1_pay3_eq]; exact pay3_apply v0 v2 v3 v6 v8 v13 p q

/-- The second cell's new hidden block at an index. -/
theorem pay1_apply1 (v0 v2 v3 : S128x1024.Idx → EReal) (v6 v8 : S1024x3072.Idx → EReal) (v13 : S1x3072.Idx → EReal)
    (v29 v31 : S1024x3072.Idx → EReal) (v36 : S1x3072.Idx → EReal) (p : Fin 128) (q : Fin 1024) :
    k1_pay1 (F := Ideal) v3 (k1_pay4 (F := Ideal) v0 v2 v3 v6 v8 v13 v29 v31) v36 (ix2 p q)
      = mix (bpre v0 (k1_pay3 (F := Ideal) v0 v2 v3 v6 v8 v13) v29 v31 v36 1 p q)
          (bpre v0 (k1_pay3 (F := Ideal) v0 v2 v3 v6 v8 v13) v29 v31 v36 0 p q)
          (bpre v0 (k1_pay3 (F := Ideal) v0 v2 v3 v6 v8 v13) v29 v31 v36 2 p q) (v3 (ix2 p q)) := by
  rw [k1_pay1_eq, k1_pay4_eq, k1_pay3_eq]; exact pay1_apply v0 v2 v3 v6 v8 v13 v29 v31 v36 p q

end Cert.KernelIdeal.CellBody

end
-- ==== Proof.Cell0.lean ====
/-
  What the first cell's launch leaves in its two output arrays, as whole-array functions of the arrays it reads.

  Grid point `t` (of 32) stages rows `128 t … 128 t + 127` of `x`, `c`, `h`, the whole flattened weights and the whole bias
  row, and writes back rows `128 t … 128 t + 127` of the new hidden and new cell arrays. The block a point writes is the
  block of ONE function of the whole arrays (`Spec.newHT`, `Spec.newCT`: row `r` of the result depends on row `r` of
  `x`, `c`, `h` only), and the 32 blocks tile the 4096 rows, so the arrays end holding those functions.
-/
import proofs.«113015_j28484223107779_1_alg».proof.Proof.Gen.KernelIdeal.Frame
import proofs.«113015_j28484223107779_1_alg».proof.Proof.CellBody

set_option maxRecDepth 16384

noncomputable section

namespace Cert.KernelIdeal.Cell0

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-- Row `p` of grid point `t`'s block, as a row of the array. -/
abbrev row (t : Fin cfg0.N) (p : Fin 128) : Fin 4096 := ⟨128 * t.val + p.val, by have := t_lt t; omega⟩

/-- Input window 0's block at point `t` is rows `128 t … 128 t + 127` of its array. -/
theorem iblk0_0_apply (c : Dev nD) (t : Fin cfg0.N) (p : Fin 128) (q : Fin 1024) :
    (iblk0 (F := Ideal) V c 0 t : S128x1024.Idx → EReal) (ix2 p q) = (V c main_v6 : S4096x1024.Idx → EReal) (ix2 (row t p) q) := by
  obtain ⟨e0, e1, -⟩ := idx_facts t
  unfold iblk0
  rw [View.read_apply]
  show V c main_v6 _ = V c main_v6 _
  congr 1
  funext a
  apply Fin.ext
  match a with
  | ⟨0, _⟩ => show win0_0.index t 0 * 128 + 1 * p.val = 128 * t.val + p.val; rw [e0]; omega
  | ⟨1, _⟩ => show win0_0.index t 1 * 1024 + 1 * q.val = q.val; rw [e1]; omega

/-- Input window 1's block at point `t` is rows `128 t … 128 t + 127` of its array. -/
theorem iblk0_1_apply (c : Dev nD) (t : Fin cfg0.N) (p : Fin 128) (q : Fin 1024) :
    (iblk0 (F := Ideal) V c 1 t : S128x1024.Idx → EReal) (ix2 p q) = (V c main_arg1 : S4096x1024.Idx → EReal) (ix2 (row t p) q) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 128 + 1 * p.val = 128 * t.val + p.val; rw [e0]; omega
  | ⟨1, _⟩ => show win0_1.index t 1 * 1024 + 1 * q.val = q.val; rw [e1]; omega

/-- Input window 2's block at point `t` is rows `128 t … 128 t + 127` of its array. -/
theorem iblk0_2_apply (c : Dev nD) (t : Fin cfg0.N) (p : Fin 128) (q : Fin 1024) :
    (iblk0 (F := Ideal) V c 2 t : S128x1024.Idx → EReal) (ix2 p q) = (V c main_arg2 : S4096x1024.Idx → EReal) (ix2 (row t p) q) := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 128 + 1 * p.val = 128 * t.val + p.val; rw [e0]; omega
  | ⟨1, _⟩ => show win0_2.index t 1 * 1024 + 1 * q.val = q.val; rw [e1]; omega

/-- Input window 3's block at every point is its whole array. -/
theorem iblk0_3_eq (c : Dev nD) (t : Fin cfg0.N) :
    (iblk0 (F := Ideal) V c 3 t : S2048x6144.Idx → EReal) = (V c main_v9 : S2048x6144.Idx → EReal) := by
  obtain ⟨-, -, -, -, -, -, e0, e1, -⟩ := idx_facts t
  funext i
  obtain ⟨a, b, rfl⟩ : ∃ (a : Fin 2048) (b : Fin 6144), i = ix2 a b := ⟨i 0, i 1, eq_ix2 i⟩
  unfold iblk0
  rw [View.read_apply]
  show V c main_v9 _ = V c main_v9 _
  congr 1
  funext d
  apply Fin.ext
  match d with
  | ⟨0, _⟩ => show win0_3.index t 0 * 2048 + 1 * a.val = a.val; rw [e0]; omega
  | ⟨1, _⟩ => show win0_3.index t 1 * 6144 + 1 * b.val = b.val; rw [e1]; omega

/-- Input window 4's block at every point is its whole array. -/
theorem iblk0_4_eq (c : Dev nD) (t : Fin cfg0.N) :
    (iblk0 (F := Ideal) V c 4 t : S1x6144.Idx → EReal) = (V c main_v10 : S1x6144.Idx → EReal) := by
  obtain ⟨-, -, -, -, -, -, -, -, e0, e1, -⟩ := idx_facts t
  funext i
  obtain ⟨a, b, rfl⟩ : ∃ (a : Fin 1) (b : Fin 6144), i = ix2 a b := ⟨i 0, i 1, eq_ix2 i⟩
  unfold iblk0
  rw [View.read_apply]
  show V c main_v10 _ = V c main_v10 _
  congr 1
  funext d
  apply Fin.ext
  match d with
  | ⟨0, _⟩ => show win0_4.index t 0 * 1 + 1 * a.val = a.val; rw [e0]; omega
  | ⟨1, _⟩ => show win0_4.index t 1 * 6144 + 1 * b.val = b.val; rw [e1]; omega

/-- Gate `g` of the first three, as one of the six. -/
abbrev glo (g : Fin 3) : Fin 6 := ⟨g.val, by omega⟩
/-- Gate `g` of the last three, as one of the six. -/
abbrev ghi (g : Fin 3) : Fin 6 := ⟨3 + g.val, by omega⟩

/-- The first three gates' first weight quarter: rows `0 … 1023`, columns `0 … 3071` of the flattened weights. -/
theorem ld_r0_1 (x3 : Vec Ideal S2048x6144 .bf16) (k : Fin 1024) (g : Fin 3) (q : Fin 1024) :
    (View.ld x3 r0_1 : S1024x3072.Idx → EReal) (ix2 k (CellBody.col3 g q)) = x3 (ix2 (lo k) (gcol (glo g) q)) := by
  show x3 _ = x3 _
  congr 1
  funext a
  apply Fin.ext
  match a with
  | ⟨0, _⟩ => show 0 + 1 * k.val = k.val; omega
  | ⟨1, _⟩ => show 0 + 1 * (g.val * 1024 + q.val) = g.val * 1024 + q.val; omega

/-- Their second quarter: rows `1024 … 2047`, columns `0 … 3071`. -/
theorem ld_r0_2 (x3 : Vec Ideal S2048x6144 .bf16) (k : Fin 1024) (g : Fin 3) (q : Fin 1024) :
    (View.ld x3 r0_2 : S1024x3072.Idx → EReal) (ix2 k (CellBody.col3 g q)) = x3 (ix2 (hi k) (gcol (glo g) q)) := by
  show x3 _ = x3 _
  congr 1
  funext a
  apply Fin.ext
  match a with
  | ⟨0, _⟩ => show 1024 + 1 * k.val = 1024 + k.val; omega
  | ⟨1, _⟩ => show 0 + 1 * (g.val * 1024 + q.val) = g.val * 1024 + q.val; omega

/-- Their bias half: columns `0 … 3071` of the bias row. -/
theorem ld_r0_3 (x4 : Vec Ideal S1x6144 .f32) (g : Fin 3) (q : Fin 1024) :
    (View.ld x4 r0_3 : S1x3072.Idx → EReal) (ix2 (0 : Fin 1) (CellBody.col3 g q)) = x4 (ix2 (0 : Fin 1) (gcol (glo g) q)) := by
  show x4 _ = x4 _
  congr 1
  funext a
  apply Fin.ext
  match a with
  | ⟨0, _⟩ => show 0 + 1 * 0 = 0; omega
  | ⟨1, _⟩ => show 0 + 1 * (g.val * 1024 + q.val) = g.val * 1024 + q.val; omega

/-- The last three gates' first weight quarter: rows `0 … 1023`, columns `3072 … 6143`. -/
theorem ld_r0_4 (x3 : Vec Ideal S2048x6144 .bf16) (k : Fin 1024) (g : Fin 3) (q : Fin 1024) :
    (View.ld x3 r0_4 : S1024x3072.Idx → EReal) (ix2 k (CellBody.col3 g q)) = x3 (ix2 (lo k) (gcol (ghi g) q)) := by
  show x3 _ = x3 _
  congr 1
  funext a
  apply Fin.ext
  match a with
  | ⟨0, _⟩ => show 0 + 1 * k.val = k.val; omega
  | ⟨1, _⟩ => show 3072 + 1 * (g.val * 1024 + q.val) = (3 + g.val) * 1024 + q.val; omega

/-- Their second quarter: rows `1024 … 2047`, columns `3072 … 6143`. -/
theorem ld_r0_5 (x3 : Vec Ideal S2048x6144 .bf16) (k : Fin 1024) (g : Fin 3) (q : Fin 1024) :
    (View.ld x3 r0_5 : S1024x3072.Idx → EReal) (ix2 k (CellBody.col3 g q)) = x3 (ix2 (hi k) (gcol (ghi g) q)) := by
  show x3 _ = x3 _
  congr 1
  funext a
  apply Fin.ext
  match a with
  | ⟨0, _⟩ => show 1024 + 1 * k.val = 1024 + k.val; omega
  | ⟨1, _⟩ => show 3072 + 1 * (g.val * 1024 + q.val) = (3 + g.val) * 1024 + q.val; omega

/-- Their bias half: columns `3072 … 6143` of the bias row. -/
theorem ld_r0_6 (x4 : Vec Ideal S1x6144 .f32) (g : Fin 3) (q : Fin 1024) :
    (View.ld x4 r0_6 : S1x3072.Idx → EReal) (ix2 (0 : Fin 1) (CellBody.col3 g q)) = x4 (ix2 (0 : Fin 1) (gcol (ghi g) q)) := by
  show x4 _ = x4 _
  congr 1
  funext a
  apply Fin.ext
  match a with
  | ⟨0, _⟩ => show 0 + 1 * 0 = 0; omega
  | ⟨1, _⟩ => show 3072 + 1 * (g.val * 1024 + q.val) = (3 + g.val) * 1024 + q.val; omega

/-- A gate of the first three over one block of rows is the gate's pre-activation over the arrays at the block's row. -/
theorem bpre_lo (x0 y : Vec Ideal S128x1024 .f32) (x3 : Vec Ideal S2048x6144 .bf16) (x4 : Vec Ideal S1x6144 .f32)
    (X Y : SBH.Idx → EReal) (r : Fin 4096) (p : Fin 128)
    (hx : ∀ k : Fin 1024, x0 (ix2 p k) = X (ix2 r k)) (hy : ∀ k : Fin 1024, y (ix2 p k) = Y (ix2 r k)) (g : Fin 3) (q : Fin 1024) :
    CellBody.bpre x0 y (View.ld x3 r0_1) (View.ld x3 r0_2) (View.ld x4 r0_3) g p q = preT X Y x3 x4 (glo g) r q := by
  unfold CellBody.bpre preT
  refine congrArg₂ (· + ·) (congrArg₂ (· + ·) (Finset.sum_congr rfl fun k _ => ?_) (Finset.sum_congr rfl fun k _ => ?_)) ?_
  · rw [hx k]; exact congrArg _ (ld_r0_1 x3 k g q)
  · rw [hy k]; exact congrArg _ (ld_r0_2 x3 k g q)
  · exact ld_r0_3 x4 g q

/-- A gate of the last three over one block of rows. -/
theorem bpre_hi (x0 y : Vec Ideal S128x1024 .f32) (x3 : Vec Ideal S2048x6144 .bf16) (x4 : Vec Ideal S1x6144 .f32)
    (X Y : SBH.Idx → EReal) (r : Fin 4096) (p : Fin 128)
    (hx : ∀ k : Fin 1024, x0 (ix2 p k) = X (ix2 r k)) (hy : ∀ k : Fin 1024, y (ix2 p k) = Y (ix2 r k)) (g : Fin 3) (q : Fin 1024) :
    CellBody.bpre x0 y (View.ld x3 r0_4) (View.ld x3 r0_5) (View.ld x4 r0_6) g p q = preT X Y x3 x4 (ghi g) r q := by
  unfold CellBody.bpre preT
  refine congrArg₂ (· + ·) (congrArg₂ (· + ·) (Finset.sum_congr rfl fun k _ => ?_) (Finset.sum_congr rfl fun k _ => ?_)) ?_
  · rw [hx k]; exact congrArg _ (ld_r0_4 x3 k g q)
  · rw [hy k]; exact congrArg _ (ld_r0_5 x3 k g q)
  · exact ld_r0_6 x4 g q

/-- The new cell block, row `p`, is the new cell array's row `r` when the blocks' rows `p` are the arrays' rows `r`. -/
theorem newc_block (x0 x1 x2 : Vec Ideal S128x1024 .f32) (x3 : Vec Ideal S2048x6144 .bf16) (x4 : Vec Ideal S1x6144 .f32)
    (X C H : SBH.Idx → EReal) (r : Fin 4096) (p : Fin 128)
    (hx : ∀ k : Fin 1024, x0 (ix2 p k) = X (ix2 r k)) (hc : ∀ k : Fin 1024, x1 (ix2 p k) = C (ix2 r k))
    (hh : ∀ k : Fin 1024, x2 (ix2 p k) = H (ix2 r k)) (q : Fin 1024) :
    k0_pay3 (F := Ideal) x0 x1 x2 (View.ld x3 r0_1) (View.ld x3 r0_2) (View.ld x4 r0_3) (ix2 p q) = newCTAt X C H x3 x4 r q := by
  refine (CellBody.pay3_apply x0 x1 x2 (View.ld x3 r0_1) (View.ld x3 r0_2) (View.ld x4 r0_3) p q).trans ?_
  rw [bpre_lo x0 x2 x3 x4 X H r p hx hh 0 q, bpre_lo x0 x2 x3 x4 X H r p hx hh 1 q, bpre_lo x0 x2 x3 x4 X H r p hx hh 2 q, hc q]
  rfl

/-- The new hidden block, row `p`, is the new hidden array's row `r`. -/
theorem newh_block (x0 x1 x2 : Vec Ideal S128x1024 .f32) (x3 : Vec Ideal S2048x6144 .bf16) (x4 : Vec Ideal S1x6144 .f32)
    (X C H : SBH.Idx → EReal) (r : Fin 4096) (p : Fin 128)
    (hx : ∀ k : Fin 1024, x0 (ix2 p k) = X (ix2 r k)) (hc : ∀ k : Fin 1024, x1 (ix2 p k) = C (ix2 r k))
    (hh : ∀ k : Fin 1024, x2 (ix2 p k) = H (ix2 r k)) (q : Fin 1024) :
    k0_pay1 (F := Ideal) x2 (k0_pay4 (F := Ideal) x0 x1 x2 (View.ld x3 r0_1) (View.ld x3 r0_2) (View.ld x4 r0_3) (View.ld x3 r0_4) (View.ld x3 r0_5))
        (View.ld x4 r0_6) (ix2 p q) = newHTAt X C H x3 x4 r q := by
  refine (CellBody.pay1_apply x0 x1 x2 (View.ld x3 r0_1) (View.ld x3 r0_2) (View.ld x4 r0_3) (View.ld x3 r0_4) (View.ld x3 r0_5) (View.ld x4 r0_6) p q).trans ?_
  have hn : ∀ k : Fin 1024, k0_pay3 (F := Ideal) x0 x1 x2 (View.ld x3 r0_1) (View.ld x3 r0_2) (View.ld x4 r0_3) (ix2 p k)
      = newCT X C H x3 x4 (ix2 r k) := fun k => newc_block x0 x1 x2 x3 x4 X C H r p hx hc hh k
  rw [bpre_hi x0 _ x3 x4 X (newCT X C H x3 x4) r p hx hn 0 q, bpre_hi x0 _ x3 x4 X (newCT X C H x3 x4) r p hx hn 1 q,
    bpre_hi x0 _ x3 x4 X (newCT X C H x3 x4) r p hx hn 2 q, hh q]
  rfl

/-- What point `t` writes back to the new cell array is block `t` of `newCT` of the arrays the region finds. -/
theorem flushed_6_eq (c : Dev nD) (t : Fin cfg0.N) :
    (dat0 (F := Ideal) V c).flushed 6 t = ((cfg0.win 6).blk t).view.read (Elt Ideal)
      (newCT (V c main_v6) (V c main_arg1) (V c main_arg2) (V c main_v9) (V c main_v10)) := by
  show (cfg0.win 6).cut (grid0.coords t) ((dat0 V c).after 6 t) = _
  rw [after0_6]
  unfold out0_6
  rw [View.canon_unit_zero hz]
  simp only [View.ld_unit_zero (S := S128x1024) hz]
  obtain ⟨-, -, -, -, -, -, -, -, -, -, -, -, e0, e1⟩ := idx_facts t
  funext y
  obtain ⟨p, q, rfl⟩ : ∃ (p : Fin 128) (q : Fin 1024), y = ix2 p q := ⟨y 0, y 1, eq_ix2 y⟩
  rw [View.read_apply]
  have he : ((cfg0.win 6).blk t).view.emb (ix2 p q) = ix2 (row t p) q := by
    funext a
    apply Fin.ext
    match a with
    | ⟨0, _⟩ => show win0_6.index t 0 * 128 + 1 * p.val = 128 * t.val + p.val; rw [e0]; omega
    | ⟨1, _⟩ => show win0_6.index t 1 * 1024 + 1 * q.val = q.val; rw [e1]; omega
  rw [he, newCT_apply, ← iblk0_3_eq V c t, ← iblk0_4_eq V c t]
  exact newc_block (iblk0 V c 0 t) (iblk0 V c 1 t) (iblk0 V c 2 t) (iblk0 V c 3 t) (iblk0 V c 4 t)
    (V c main_v6) (V c main_arg1) (V c main_arg2) (row t p) p (fun k => iblk0_0_apply V c t p k) (fun k => iblk0_1_apply V c t p k)
    (fun k => iblk0_2_apply V c t p k) q

/-- What point `t` writes back to the new hidden array is block `t` of `newHT` of the arrays the region finds. -/
theorem flushed_5_eq (c : Dev nD) (t : Fin cfg0.N) :
    (dat0 (F := Ideal) V c).flushed 5 t = ((cfg0.win 5).blk t).view.read (Elt Ideal)
      (newHT (V c main_v6) (V c main_arg1) (V c main_arg2) (V c main_v9) (V c main_v10)) := by
  show (cfg0.win 5).cut (grid0.coords t) ((dat0 V c).after 5 t) = _
  rw [after0_5]
  unfold out0_5
  rw [View.canon_unit_zero hz]
  simp only [View.ld_unit_zero (S := S128x1024) hz]
  obtain ⟨-, -, -, -, -, -, -, -, -, -, e0, e1, -⟩ := idx_facts t
  funext y
  obtain ⟨p, q, rfl⟩ : ∃ (p : Fin 128) (q : Fin 1024), y = ix2 p q := ⟨y 0, y 1, eq_ix2 y⟩
  rw [View.read_apply]
  have he : ((cfg0.win 5).blk t).view.emb (ix2 p q) = ix2 (row t p) q := by
    funext a
    apply Fin.ext
    match a with
    | ⟨0, _⟩ => show win0_5.index t 0 * 128 + 1 * p.val = 128 * t.val + p.val; rw [e0]; omega
    | ⟨1, _⟩ => show win0_5.index t 1 * 1024 + 1 * q.val = q.val; rw [e1]; omega
  rw [he, newHT_apply, ← iblk0_3_eq V c t, ← iblk0_4_eq V c t]
  exact newh_block (iblk0 V c 0 t) (iblk0 V c 1 t) (iblk0 V c 2 t) (iblk0 V c 3 t) (iblk0 V c 4 t)
    (V c main_v6) (V c main_arg1) (V c main_arg2) (row t p) p (fun k => iblk0_0_apply V c t p k) (fun k => iblk0_1_apply V c t p k)
    (fun k => iblk0_2_apply V c t p k) q

/-- An index of the new hidden array is in point `t`'s block iff each coordinate is in the block's range on its axis. -/
theorem mem_blk_5 (t : Fin cfg0.N) (i : S4096x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v11_0).slice (win0_5.rect t)).set ↔ _
  rw [View.set_slice_whole, Rect.mem_set_unit]
  exact Iff.rfl

/-- The same for the new cell array. -/
theorem mem_blk_6 (t : Fin cfg0.N) (i : S4096x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v11_1).slice (win0_6.rect t)).set ↔ _
  rw [View.set_slice_whole, Rect.mem_set_unit]
  exact Iff.rfl

/-- The point whose block holds row `r`: `r / 128`. -/
abbrev pointOf (i : S4096x1024.Idx) : Fin cfg0.N :=
  ⟨(i 0).val / 128, lt_of_lt_of_eq (by have := idx2_lt0 i; omega) N_0.symm⟩

/-- The 32 blocks of 128 rows tile the new hidden array. -/
theorem cover_5 (i : S4096x1024.Idx) : ∃ t : Fin cfg0.N, (cfg0.win 5).flush t = true ∧ i ∈ ((cfg0.win 5).blk t).view.set := by
  have hi0 : (i 0).val < 4096 := idx2_lt0 i
  have hi1 : (i 1).val < 1024 := idx2_lt1 i
  obtain ⟨-, -, -, -, -, -, -, -, -, -, e0, e1, -⟩ := idx_facts (pointOf i)
  have ht : (pointOf i).val = (i 0).val / 128 := rfl
  refine ⟨pointOf i, flush0_5 (pointOf i), ?_⟩
  rw [mem_blk_5]
  intro a
  match a with
  | ⟨0, _⟩ => show win0_5.index (pointOf i) 0 * 128 ≤ (i 0).val ∧ (i 0).val < win0_5.index (pointOf i) 0 * 128 + 128; rw [e0, ht]; omega
  | ⟨1, _⟩ => show win0_5.index (pointOf i) 1 * 1024 ≤ (i 1).val ∧ (i 1).val < win0_5.index (pointOf i) 1 * 1024 + 1024; rw [e1]; omega

/-- The 32 blocks of 128 rows tile the new cell array. -/
theorem cover_6 (i : S4096x1024.Idx) : ∃ t : Fin cfg0.N, (cfg0.win 6).flush t = true ∧ i ∈ ((cfg0.win 6).blk t).view.set := by
  have hi0 : (i 0).val < 4096 := idx2_lt0 i
  have hi1 : (i 1).val < 1024 := idx2_lt1 i
  obtain ⟨-, -, -, -, -, -, -, -, -, -, -, -, e0, e1⟩ := idx_facts (pointOf i)
  have ht : (pointOf i).val = (i 0).val / 128 := rfl
  refine ⟨pointOf i, flush0_6 (pointOf i), ?_⟩
  rw [mem_blk_6]
  intro a
  match a with
  | ⟨0, _⟩ => show win0_6.index (pointOf i) 0 * 128 ≤ (i 0).val ∧ (i 0).val < win0_6.index (pointOf i) 0 * 128 + 128; rw [e0, ht]; omega
  | ⟨1, _⟩ => show win0_6.index (pointOf i) 1 * 1024 ≤ (i 1).val ∧ (i 1).val < win0_6.index (pointOf i) 1 * 1024 + 1024; rw [e1]; omega

/-- The new hidden array (output window 5) after the first cell's launch. -/
theorem newh (c : Dev nD) :
    (dat0 (F := Ideal) V c).arrAt 5 cfg0.N = newHT (V c main_v6) (V c main_arg1) (V c main_arg2) (V c main_v9) (V c main_v10) :=
  (dat0 (F := Ideal) V c).arrAt_eq_of_cover 5 (newHT (V c main_v6) (V c main_arg1) (V c main_arg2) (V c main_v9) (V c main_v10))
    (fun t _ => flushed_5_eq V c t) cover_5

/-- The new cell array (output window 6) after the first cell's launch. -/
theorem newc (c : Dev nD) :
    (dat0 (F := Ideal) V c).arrAt 6 cfg0.N = newCT (V c main_v6) (V c main_arg1) (V c main_arg2) (V c main_v9) (V c main_v10) :=
  (dat0 (F := Ideal) V c).arrAt_eq_of_cover 6 (newCT (V c main_v6) (V c main_arg1) (V c main_arg2) (V c main_v9) (V c main_v10))
    (fun t _ => flushed_6_eq V c t) cover_6

end Cert.KernelIdeal.Cell0

end
-- ==== Proof.Cell1.lean ====
/-
  What the second cell's launch leaves in its two output arrays, as whole-array functions of the arrays it reads.

  Grid point `t` (of 32) stages rows `128 t … 128 t + 127` of `x`, `c`, `h`, the whole flattened weights and the whole bias
  row, and writes back rows `128 t … 128 t + 127` of the new hidden and new cell arrays. The block a point writes is the
  block of ONE function of the whole arrays (`Spec.newHT`, `Spec.newCT`: row `r` of the result depends on row `r` of
  `x`, `c`, `h` only), and the 32 blocks tile the 4096 rows, so the arrays end holding those functions.
-/
import proofs.«113015_j28484223107779_1_alg».proof.Proof.Gen.KernelIdeal.Frame
import proofs.«113015_j28484223107779_1_alg».proof.Proof.CellBody

set_option maxRecDepth 16384

noncomputable section

namespace Cert.KernelIdeal.Cell1

open Cert.KernelIdeal Cert.KernelIdeal.Gen Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 32 := lt_of_lt_of_eq t.isLt N_1

/-- Row `p` of grid point `t`'s block, as a row of the array. -/
abbrev row (t : Fin cfg1.N) (p : Fin 128) : Fin 4096 := ⟨128 * t.val + p.val, by have := t_lt t; omega⟩

/-- Input window 0's block at point `t` is rows `128 t … 128 t + 127` of its array. -/
theorem iblk1_0_apply (c : Dev nD) (t : Fin cfg1.N) (p : Fin 128) (q : Fin 1024) :
    (iblk1 (F := Ideal) V c 0 t : S128x1024.Idx → EReal) (ix2 p q) = (V c main_v11_0 : S4096x1024.Idx → EReal) (ix2 (row t p) q) := by
  obtain ⟨e0, e1, -⟩ := idx_facts t
  unfold iblk1
  rw [View.read_apply]
  show V c main_v11_0 _ = V c main_v11_0 _
  congr 1
  funext a
  apply Fin.ext
  match a with
  | ⟨0, _⟩ => show win1_0.index t 0 * 128 + 1 * p.val = 128 * t.val + p.val; rw [e0]; omega
  | ⟨1, _⟩ => show win1_0.index t 1 * 1024 + 1 * q.val = q.val; rw [e1]; omega

/-- Input window 1's block at point `t` is rows `128 t … 128 t + 127` of its array. -/
theorem iblk1_1_apply (c : Dev nD) (t : Fin cfg1.N) (p : Fin 128) (q : Fin 1024) :
    (iblk1 (F := Ideal) V c 1 t : S128x1024.Idx → EReal) (ix2 p q) = (V c main_arg3 : S4096x1024.Idx → EReal) (ix2 (row t p) q) := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t 0 * 128 + 1 * p.val = 128 * t.val + p.val; rw [e0]; omega
  | ⟨1, _⟩ => show win1_1.index t 1 * 1024 + 1 * q.val = q.val; rw [e1]; omega

/-- Input window 2's block at point `t` is rows `128 t … 128 t + 127` of its array. -/
theorem iblk1_2_apply (c : Dev nD) (t : Fin cfg1.N) (p : Fin 128) (q : Fin 1024) :
    (iblk1 (F := Ideal) V c 2 t : S128x1024.Idx → EReal) (ix2 p q) = (V c main_arg4 : S4096x1024.Idx → EReal) (ix2 (row t p) q) := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t 0 * 128 + 1 * p.val = 128 * t.val + p.val; rw [e0]; omega
  | ⟨1, _⟩ => show win1_2.index t 1 * 1024 + 1 * q.val = q.val; rw [e1]; omega

/-- Input window 3's block at every point is its whole array. -/
theorem iblk1_3_eq (c : Dev nD) (t : Fin cfg1.N) :
    (iblk1 (F := Ideal) V c 3 t : S2048x6144.Idx → EReal) = (V c main_v14 : S2048x6144.Idx → EReal) := by
  obtain ⟨-, -, -, -, -, -, e0, e1, -⟩ := idx_facts t
  funext i
  obtain ⟨a, b, rfl⟩ : ∃ (a : Fin 2048) (b : Fin 6144), i = ix2 a b := ⟨i 0, i 1, eq_ix2 i⟩
  unfold iblk1
  rw [View.read_apply]
  show V c main_v14 _ = V c main_v14 _
  congr 1
  funext d
  apply Fin.ext
  match d with
  | ⟨0, _⟩ => show win1_3.index t 0 * 2048 + 1 * a.val = a.val; rw [e0]; omega
  | ⟨1, _⟩ => show win1_3.index t 1 * 6144 + 1 * b.val = b.val; rw [e1]; omega

/-- Input window 4's block at every point is its whole array. -/
theorem iblk1_4_eq (c : Dev nD) (t : Fin cfg1.N) :
    (iblk1 (F := Ideal) V c 4 t : S1x6144.Idx → EReal) = (V c main_v15 : S1x6144.Idx → EReal) := by
  obtain ⟨-, -, -, -, -, -, -, -, e0, e1, -⟩ := idx_facts t
  funext i
  obtain ⟨a, b, rfl⟩ : ∃ (a : Fin 1) (b : Fin 6144), i = ix2 a b := ⟨i 0, i 1, eq_ix2 i⟩
  unfold iblk1
  rw [View.read_apply]
  show V c main_v15 _ = V c main_v15 _
  congr 1
  funext d
  apply Fin.ext
  match d with
  | ⟨0, _⟩ => show win1_4.index t 0 * 1 + 1 * a.val = a.val; rw [e0]; omega
  | ⟨1, _⟩ => show win1_4.index t 1 * 6144 + 1 * b.val = b.val; rw [e1]; omega

/-- Gate `g` of the first three, as one of the six. -/
abbrev glo (g : Fin 3) : Fin 6 := ⟨g.val, by omega⟩
/-- Gate `g` of the last three, as one of the six. -/
abbrev ghi (g : Fin 3) : Fin 6 := ⟨3 + g.val, by omega⟩

/-- The first three gates' first weight quarter: rows `0 … 1023`, columns `0 … 3071` of the flattened weights. -/
theorem ld_r1_1 (x3 : Vec Ideal S2048x6144 .bf16) (k : Fin 1024) (g : Fin 3) (q : Fin 1024) :
    (View.ld x3 r1_1 : S1024x3072.Idx → EReal) (ix2 k (CellBody.col3 g q)) = x3 (ix2 (lo k) (gcol (glo g) q)) := by
  show x3 _ = x3 _
  congr 1
  funext a
  apply Fin.ext
  match a with
  | ⟨0, _⟩ => show 0 + 1 * k.val = k.val; omega
  | ⟨1, _⟩ => show 0 + 1 * (g.val * 1024 + q.val) = g.val * 1024 + q.val; omega

/-- Their second quarter: rows `1024 … 2047`, columns `0 … 3071`. -/
theorem ld_r1_2 (x3 : Vec Ideal S2048x6144 .bf16) (k : Fin 1024) (g : Fin 3) (q : Fin 1024) :
    (View.ld x3 r1_2 : S1024x3072.Idx → EReal) (ix2 k (CellBody.col3 g q)) = x3 (ix2 (hi k) (gcol (glo g) q)) := by
  show x3 _ = x3 _
  congr 1
  funext a
  apply Fin.ext
  match a with
  | ⟨0, _⟩ => show 1024 + 1 * k.val = 1024 + k.val; omega
  | ⟨1, _⟩ => show 0 + 1 * (g.val * 1024 + q.val) = g.val * 1024 + q.val; omega

/-- Their bias half: columns `0 … 3071` of the bias row. -/
theorem ld_r1_3 (x4 : Vec Ideal S1x6144 .f32) (g : Fin 3) (q : Fin 1024) :
    (View.ld x4 r1_3 : S1x3072.Idx → EReal) (ix2 (0 : Fin 1) (CellBody.col3 g q)) = x4 (ix2 (0 : Fin 1) (gcol (glo g) q)) := by
  show x4 _ = x4 _
  congr 1
  funext a
  apply Fin.ext
  match a with
  | ⟨0, _⟩ => show 0 + 1 * 0 = 0; omega
  | ⟨1, _⟩ => show 0 + 1 * (g.val * 1024 + q.val) = g.val * 1024 + q.val; omega

/-- The last three gates' first weight quarter: rows `0 … 1023`, columns `3072 … 6143`. -/
theorem ld_r1_4 (x3 : Vec Ideal S2048x6144 .bf16) (k : Fin 1024) (g : Fin 3) (q : Fin 1024) :
    (View.ld x3 r1_4 : S1024x3072.Idx → EReal) (ix2 k (CellBody.col3 g q)) = x3 (ix2 (lo k) (gcol (ghi g) q)) := by
  show x3 _ = x3 _
  congr 1
  funext a
  apply Fin.ext
  match a with
  | ⟨0, _⟩ => show 0 + 1 * k.val = k.val; omega
  | ⟨1, _⟩ => show 3072 + 1 * (g.val * 1024 + q.val) = (3 + g.val) * 1024 + q.val; omega

/-- Their second quarter: rows `1024 … 2047`, columns `3072 … 6143`. -/
theorem ld_r1_5 (x3 : Vec Ideal S2048x6144 .bf16) (k : Fin 1024) (g : Fin 3) (q : Fin 1024) :
    (View.ld x3 r1_5 : S1024x3072.Idx → EReal) (ix2 k (CellBody.col3 g q)) = x3 (ix2 (hi k) (gcol (ghi g) q)) := by
  show x3 _ = x3 _
  congr 1
  funext a
  apply Fin.ext
  match a with
  | ⟨0, _⟩ => show 1024 + 1 * k.val = 1024 + k.val; omega
  | ⟨1, _⟩ => show 3072 + 1 * (g.val * 1024 + q.val) = (3 + g.val) * 1024 + q.val; omega

/-- Their bias half: columns `3072 … 6143` of the bias row. -/
theorem ld_r1_6 (x4 : Vec Ideal S1x6144 .f32) (g : Fin 3) (q : Fin 1024) :
    (View.ld x4 r1_6 : S1x3072.Idx → EReal) (ix2 (0 : Fin 1) (CellBody.col3 g q)) = x4 (ix2 (0 : Fin 1) (gcol (ghi g) q)) := by
  show x4 _ = x4 _
  congr 1
  funext a
  apply Fin.ext
  match a with
  | ⟨0, _⟩ => show 0 + 1 * 0 = 0; omega
  | ⟨1, _⟩ => show 3072 + 1 * (g.val * 1024 + q.val) = (3 + g.val) * 1024 + q.val; omega

/-- A gate of the first three over one block of rows is the gate's pre-activation over the arrays at the block's row. -/
theorem bpre_lo (x0 y : Vec Ideal S128x1024 .f32) (x3 : Vec Ideal S2048x6144 .bf16) (x4 : Vec Ideal S1x6144 .f32)
    (X Y : SBH.Idx → EReal) (r : Fin 4096) (p : Fin 128)
    (hx : ∀ k : Fin 1024, x0 (ix2 p k) = X (ix2 r k)) (hy : ∀ k : Fin 1024, y (ix2 p k) = Y (ix2 r k)) (g : Fin 3) (q : Fin 1024) :
    CellBody.bpre x0 y (View.ld x3 r1_1) (View.ld x3 r1_2) (View.ld x4 r1_3) g p q = preT X Y x3 x4 (glo g) r q := by
  unfold CellBody.bpre preT
  refine congrArg₂ (· + ·) (congrArg₂ (· + ·) (Finset.sum_congr rfl fun k _ => ?_) (Finset.sum_congr rfl fun k _ => ?_)) ?_
  · rw [hx k]; exact congrArg _ (ld_r1_1 x3 k g q)
  · rw [hy k]; exact congrArg _ (ld_r1_2 x3 k g q)
  · exact ld_r1_3 x4 g q

/-- A gate of the last three over one block of rows. -/
theorem bpre_hi (x0 y : Vec Ideal S128x1024 .f32) (x3 : Vec Ideal S2048x6144 .bf16) (x4 : Vec Ideal S1x6144 .f32)
    (X Y : SBH.Idx → EReal) (r : Fin 4096) (p : Fin 128)
    (hx : ∀ k : Fin 1024, x0 (ix2 p k) = X (ix2 r k)) (hy : ∀ k : Fin 1024, y (ix2 p k) = Y (ix2 r k)) (g : Fin 3) (q : Fin 1024) :
    CellBody.bpre x0 y (View.ld x3 r1_4) (View.ld x3 r1_5) (View.ld x4 r1_6) g p q = preT X Y x3 x4 (ghi g) r q := by
  unfold CellBody.bpre preT
  refine congrArg₂ (· + ·) (congrArg₂ (· + ·) (Finset.sum_congr rfl fun k _ => ?_) (Finset.sum_congr rfl fun k _ => ?_)) ?_
  · rw [hx k]; exact congrArg _ (ld_r1_4 x3 k g q)
  · rw [hy k]; exact congrArg _ (ld_r1_5 x3 k g q)
  · exact ld_r1_6 x4 g q

/-- The new cell block, row `p`, is the new cell array's row `r` when the blocks' rows `p` are the arrays' rows `r`. -/
theorem newc_block (x0 x1 x2 : Vec Ideal S128x1024 .f32) (x3 : Vec Ideal S2048x6144 .bf16) (x4 : Vec Ideal S1x6144 .f32)
    (X C H : SBH.Idx → EReal) (r : Fin 4096) (p : Fin 128)
    (hx : ∀ k : Fin 1024, x0 (ix2 p k) = X (ix2 r k)) (hc : ∀ k : Fin 1024, x1 (ix2 p k) = C (ix2 r k))
    (hh : ∀ k : Fin 1024, x2 (ix2 p k) = H (ix2 r k)) (q : Fin 1024) :
    k1_pay3 (F := Ideal) x0 x1 x2 (View.ld x3 r1_1) (View.ld x3 r1_2) (View.ld x4 r1_3) (ix2 p q) = newCTAt X C H x3 x4 r q := by
  refine (CellBody.pay3_apply1 x0 x1 x2 (View.ld x3 r1_1) (View.ld x3 r1_2) (View.ld x4 r1_3) p q).trans ?_
  rw [bpre_lo x0 x2 x3 x4 X H r p hx hh 0 q, bpre_lo x0 x2 x3 x4 X H r p hx hh 1 q, bpre_lo x0 x2 x3 x4 X H r p hx hh 2 q, hc q]
  rfl

/-- The new hidden block, row `p`, is the new hidden array's row `r`. -/
theorem newh_block (x0 x1 x2 : Vec Ideal S128x1024 .f32) (x3 : Vec Ideal S2048x6144 .bf16) (x4 : Vec Ideal S1x6144 .f32)
    (X C H : SBH.Idx → EReal) (r : Fin 4096) (p : Fin 128)
    (hx : ∀ k : Fin 1024, x0 (ix2 p k) = X (ix2 r k)) (hc : ∀ k : Fin 1024, x1 (ix2 p k) = C (ix2 r k))
    (hh : ∀ k : Fin 1024, x2 (ix2 p k) = H (ix2 r k)) (q : Fin 1024) :
    k1_pay1 (F := Ideal) x2 (k1_pay4 (F := Ideal) x0 x1 x2 (View.ld x3 r1_1) (View.ld x3 r1_2) (View.ld x4 r1_3) (View.ld x3 r1_4) (View.ld x3 r1_5))
        (View.ld x4 r1_6) (ix2 p q) = newHTAt X C H x3 x4 r q := by
  refine (CellBody.pay1_apply1 x0 x1 x2 (View.ld x3 r1_1) (View.ld x3 r1_2) (View.ld x4 r1_3) (View.ld x3 r1_4) (View.ld x3 r1_5) (View.ld x4 r1_6) p q).trans ?_
  have hn : ∀ k : Fin 1024, k1_pay3 (F := Ideal) x0 x1 x2 (View.ld x3 r1_1) (View.ld x3 r1_2) (View.ld x4 r1_3) (ix2 p k)
      = newCT X C H x3 x4 (ix2 r k) := fun k => newc_block x0 x1 x2 x3 x4 X C H r p hx hc hh k
  rw [bpre_hi x0 _ x3 x4 X (newCT X C H x3 x4) r p hx hn 0 q, bpre_hi x0 _ x3 x4 X (newCT X C H x3 x4) r p hx hn 1 q,
    bpre_hi x0 _ x3 x4 X (newCT X C H x3 x4) r p hx hn 2 q, hh q]
  rfl

/-- What point `t` writes back to the new cell array is block `t` of `newCT` of the arrays the region finds. -/
theorem flushed_6_eq (c : Dev nD) (t : Fin cfg1.N) :
    (dat1 (F := Ideal) V c).flushed 6 t = ((cfg1.win 6).blk t).view.read (Elt Ideal)
      (newCT (V c main_v11_0) (V c main_arg3) (V c main_arg4) (V c main_v14) (V c main_v15)) := by
  show (cfg1.win 6).cut (grid1.coords t) ((dat1 V c).after 6 t) = _
  rw [after1_6]
  unfold out1_6
  rw [View.canon_unit_zero hz]
  simp only [View.ld_unit_zero (S := S128x1024) hz]
  obtain ⟨-, -, -, -, -, -, -, -, -, -, -, -, e0, e1⟩ := idx_facts t
  funext y
  obtain ⟨p, q, rfl⟩ : ∃ (p : Fin 128) (q : Fin 1024), y = ix2 p q := ⟨y 0, y 1, eq_ix2 y⟩
  rw [View.read_apply]
  have he : ((cfg1.win 6).blk t).view.emb (ix2 p q) = ix2 (row t p) q := by
    funext a
    apply Fin.ext
    match a with
    | ⟨0, _⟩ => show win1_6.index t 0 * 128 + 1 * p.val = 128 * t.val + p.val; rw [e0]; omega
    | ⟨1, _⟩ => show win1_6.index t 1 * 1024 + 1 * q.val = q.val; rw [e1]; omega
  rw [he, newCT_apply, ← iblk1_3_eq V c t, ← iblk1_4_eq V c t]
  exact newc_block (iblk1 V c 0 t) (iblk1 V c 1 t) (iblk1 V c 2 t) (iblk1 V c 3 t) (iblk1 V c 4 t)
    (V c main_v11_0) (V c main_arg3) (V c main_arg4) (row t p) p (fun k => iblk1_0_apply V c t p k) (fun k => iblk1_1_apply V c t p k)
    (fun k => iblk1_2_apply V c t p k) q

/-- What point `t` writes back to the new hidden array is block `t` of `newHT` of the arrays the region finds. -/
theorem flushed_5_eq (c : Dev nD) (t : Fin cfg1.N) :
    (dat1 (F := Ideal) V c).flushed 5 t = ((cfg1.win 5).blk t).view.read (Elt Ideal)
      (newHT (V c main_v11_0) (V c main_arg3) (V c main_arg4) (V c main_v14) (V c main_v15)) := by
  show (cfg1.win 5).cut (grid1.coords t) ((dat1 V c).after 5 t) = _
  rw [after1_5]
  unfold out1_5
  rw [View.canon_unit_zero hz]
  simp only [View.ld_unit_zero (S := S128x1024) hz]
  obtain ⟨-, -, -, -, -, -, -, -, -, -, e0, e1, -⟩ := idx_facts t
  funext y
  obtain ⟨p, q, rfl⟩ : ∃ (p : Fin 128) (q : Fin 1024), y = ix2 p q := ⟨y 0, y 1, eq_ix2 y⟩
  rw [View.read_apply]
  have he : ((cfg1.win 5).blk t).view.emb (ix2 p q) = ix2 (row t p) q := by
    funext a
    apply Fin.ext
    match a with
    | ⟨0, _⟩ => show win1_5.index t 0 * 128 + 1 * p.val = 128 * t.val + p.val; rw [e0]; omega
    | ⟨1, _⟩ => show win1_5.index t 1 * 1024 + 1 * q.val = q.val; rw [e1]; omega
  rw [he, newHT_apply, ← iblk1_3_eq V c t, ← iblk1_4_eq V c t]
  exact newh_block (iblk1 V c 0 t) (iblk1 V c 1 t) (iblk1 V c 2 t) (iblk1 V c 3 t) (iblk1 V c 4 t)
    (V c main_v11_0) (V c main_arg3) (V c main_arg4) (row t p) p (fun k => iblk1_0_apply V c t p k) (fun k => iblk1_1_apply V c t p k)
    (fun k => iblk1_2_apply V c t p k) q

/-- An index of the new hidden array is in point `t`'s block iff each coordinate is in the block's range on its axis. -/
theorem mem_blk_5 (t : Fin cfg1.N) (i : S4096x1024.Idx) :
    i ∈ ((cfg1.win 5).blk t).view.set ↔ ∀ a : Fin 2, win1_5.index t a * S128x1024.size a ≤ (i a).val
      ∧ (i a).val < win1_5.index t a * S128x1024.size a + S128x1024.size a := by
  show i ∈ ((View.whole main_v16_0).slice (win1_5.rect t)).set ↔ _
  rw [View.set_slice_whole, Rect.mem_set_unit]
  exact Iff.rfl

/-- The same for the new cell array. -/
theorem mem_blk_6 (t : Fin cfg1.N) (i : S4096x1024.Idx) :
    i ∈ ((cfg1.win 6).blk t).view.set ↔ ∀ a : Fin 2, win1_6.index t a * S128x1024.size a ≤ (i a).val
      ∧ (i a).val < win1_6.index t a * S128x1024.size a + S128x1024.size a := by
  show i ∈ ((View.whole main_v16_1).slice (win1_6.rect t)).set ↔ _
  rw [View.set_slice_whole, Rect.mem_set_unit]
  exact Iff.rfl

/-- The point whose block holds row `r`: `r / 128`. -/
abbrev pointOf (i : S4096x1024.Idx) : Fin cfg1.N :=
  ⟨(i 0).val / 128, lt_of_lt_of_eq (by have := idx2_lt0 i; omega) N_1.symm⟩

/-- The 32 blocks of 128 rows tile the new hidden array. -/
theorem cover_5 (i : S4096x1024.Idx) : ∃ t : Fin cfg1.N, (cfg1.win 5).flush t = true ∧ i ∈ ((cfg1.win 5).blk t).view.set := by
  have hi0 : (i 0).val < 4096 := idx2_lt0 i
  have hi1 : (i 1).val < 1024 := idx2_lt1 i
  obtain ⟨-, -, -, -, -, -, -, -, -, -, e0, e1, -⟩ := idx_facts (pointOf i)
  have ht : (pointOf i).val = (i 0).val / 128 := rfl
  refine ⟨pointOf i, flush1_5 (pointOf i), ?_⟩
  rw [mem_blk_5]
  intro a
  match a with
  | ⟨0, _⟩ => show win1_5.index (pointOf i) 0 * 128 ≤ (i 0).val ∧ (i 0).val < win1_5.index (pointOf i) 0 * 128 + 128; rw [e0, ht]; omega
  | ⟨1, _⟩ => show win1_5.index (pointOf i) 1 * 1024 ≤ (i 1).val ∧ (i 1).val < win1_5.index (pointOf i) 1 * 1024 + 1024; rw [e1]; omega

/-- The 32 blocks of 128 rows tile the new cell array. -/
theorem cover_6 (i : S4096x1024.Idx) : ∃ t : Fin cfg1.N, (cfg1.win 6).flush t = true ∧ i ∈ ((cfg1.win 6).blk t).view.set := by
  have hi0 : (i 0).val < 4096 := idx2_lt0 i
  have hi1 : (i 1).val < 1024 := idx2_lt1 i
  obtain ⟨-, -, -, -, -, -, -, -, -, -, -, -, e0, e1⟩ := idx_facts (pointOf i)
  have ht : (pointOf i).val = (i 0).val / 128 := rfl
  refine ⟨pointOf i, flush1_6 (pointOf i), ?_⟩
  rw [mem_blk_6]
  intro a
  match a with
  | ⟨0, _⟩ => show win1_6.index (pointOf i) 0 * 128 ≤ (i 0).val ∧ (i 0).val < win1_6.index (pointOf i) 0 * 128 + 128; rw [e0, ht]; omega
  | ⟨1, _⟩ => show win1_6.index (pointOf i) 1 * 1024 ≤ (i 1).val ∧ (i 1).val < win1_6.index (pointOf i) 1 * 1024 + 1024; rw [e1]; omega

/-- The new hidden array (output window 5) after the second cell's launch. -/
theorem newh (c : Dev nD) :
    (dat1 (F := Ideal) V c).arrAt 5 cfg1.N = newHT (V c main_v11_0) (V c main_arg3) (V c main_arg4) (V c main_v14) (V c main_v15) :=
  (dat1 (F := Ideal) V c).arrAt_eq_of_cover 5 (newHT (V c main_v11_0) (V c main_arg3) (V c main_arg4) (V c main_v14) (V c main_v15))
    (fun t _ => flushed_5_eq V c t) cover_5

/-- The new cell array (output window 6) after the second cell's launch. -/
theorem newc (c : Dev nD) :
    (dat1 (F := Ideal) V c).arrAt 6 cfg1.N = newCT (V c main_v11_0) (V c main_arg3) (V c main_arg4) (V c main_v14) (V c main_v15) :=
  (dat1 (F := Ideal) V c).arrAt_eq_of_cover 6 (newCT (V c main_v11_0) (V c main_arg3) (V c main_arg4) (V c main_v14) (V c main_v15))
    (fun t _ => flushed_6_eq V c t) cover_6

end Cert.KernelIdeal.Cell1

end
-- ==== Proof.Decode.lean ====
/-
  What the projection's launch leaves in its output array, as a whole-array function of the arrays it reads.

  Grid point `(i, j)` (of 8 × 10) stages rows `512 i … 512 i + 511` of the hidden array, columns `3200 j … 3200 j + 3199`
  of the transposed vocabulary matrix and of the bias row, multiplies them into a zero accumulator, adds the bias row
  broadcast down the rows, and writes back block `(i, j)` of the output. The block is the block of ONE function of the
  whole arrays (`Spec.decodeT`) and the 80 blocks tile the 4096 × 32000 output.
-/
import proofs.«113015_j28484223107779_1_alg».proof.Proof.Gen.KernelIdeal.Frame
import proofs.«113015_j28484223107779_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Decode

open Cert.KernelIdeal Cert.KernelIdeal.Gen Idealize.ShloMosaic Idealize.ShloMosaic.TcCoe Idealize.ShloMosaic.ValueIdx Cert.Spec
open Idealize.ShloMosaic.Pipeline (Dat)

/-! ## The body's one payload at an index -/

/-- Left operand, axis 0 (rows): the output's row. -/
private theorem lhs_axis0 (j : S512x3200.Idx) (k : dot_S512x1024_S1024x3200_S512x3200_1_0_0_1_n_n.contr.Idx) :
    (dot_S512x1024_S1024x3200_S512x3200_1_0_0_1_n_n.lhsIdx j k 0 : ℕ) = (j 0).val := by
  simp [DotDims.lhsIdx, dot_S512x1024_S1024x3200_S512x3200_1_0_0_1_n_n]; rfl

/-- Left operand, axis 1 (the contracted one): the contraction position. -/
private theorem lhs_axis1 (j : S512x3200.Idx) (k : dot_S512x1024_S1024x3200_S512x3200_1_0_0_1_n_n.contr.Idx) :
    (dot_S512x1024_S1024x3200_S512x3200_1_0_0_1_n_n.lhsIdx j k 1 : ℕ) = (k ⟨0, by decide⟩).val :=
  DotDims.lhsIdx_val_of_single (d := dot_S512x1024_S1024x3200_S512x3200_1_0_0_1_n_n) (cl := 1) rfl j k

/-- Right operand, axis 0 (the contracted one): the contraction position. -/
private theorem rhs_axis0 (j : S512x3200.Idx) (k : dot_S512x1024_S1024x3200_S512x3200_1_0_0_1_n_n.contr.Idx) :
    (dot_S512x1024_S1024x3200_S512x3200_1_0_0_1_n_n.rhsIdx j k 0 : ℕ) = (k ⟨0, by decide⟩).val :=
  DotDims.rhsIdx_val_of_single (d := dot_S512x1024_S1024x3200_S512x3200_1_0_0_1_n_n) (cr := 0) rfl j k

/-- Right operand, axis 1 (columns): the output's column. -/
private theorem rhs_axis1 (j : S512x3200.Idx) (k : dot_S512x1024_S1024x3200_S512x3200_1_0_0_1_n_n.contr.Idx) :
    (dot_S512x1024_S1024x3200_S512x3200_1_0_0_1_n_n.rhsIdx j k 1 : ℕ) = (j 1).val := by
  simp [DotDims.rhsIdx, dot_S512x1024_S1024x3200_S512x3200_1_0_0_1_n_n]; rfl

/-- The projection's payload at row `p`, column `q` of its block: the staged hidden row against the staged column of the
    transposed vocabulary matrix, summed over the 1024 hidden units into a zero accumulator, plus the staged bias at `q`. -/
private theorem pay_apply (v0 : S512x1024.Idx → EReal) (v2 : S1024x3200.Idx → EReal) (v5 : S1x3200.Idx → EReal)
    (p : Fin 512) (q : Fin 3200) :
    k2_pay1 (F := Ideal) v0 v2 v5 (ix2 p q) = (∑ k : Fin 1024, v0 (ix2 p k) * v2 (ix2 k q)) + v5 (ix2 (0 : Fin 1) q) := by
  unfold k2_pay1
  simp only [shapeCast_self]
  rw [addf_apply]
  refine congrArg₂ (· + ·) ?_ (broadcastTo_1b_ab_apply v5 _ p q)
  refine (Ideal.matmul_constant_zero_apply (φ₁ := .bf16) (φ₂ := .bf16) dot_S512x1024_S1024x3200_S512x3200_1_0_0_1_n_n none v0 v2 (ix2 p q)).trans ?_
  rw [← Equiv.sum_comp (contrEquiv1 dot_S512x1024_S1024x3200_S512x3200_1_0_0_1_n_n 1024 rfl rfl).symm]
  refine Finset.sum_congr rfl fun k _ => ?_
  have hl : dot_S512x1024_S1024x3200_S512x3200_1_0_0_1_n_n.lhsIdx (ix2 p q)
      ((contrEquiv1 dot_S512x1024_S1024x3200_S512x3200_1_0_0_1_n_n 1024 rfl rfl).symm k) = ix2 p k := by
    funext a; apply Fin.ext
    match a with
    | ⟨0, _⟩ => exact lhs_axis0 _ _
    | ⟨1, _⟩ => exact (lhs_axis1 _ _).trans (contrEquiv1_symm_val _ 1024 rfl rfl k)
  have hr : dot_S512x1024_S1024x3200_S512x3200_1_0_0_1_n_n.rhsIdx (ix2 p q)
      ((contrEquiv1 dot_S512x1024_S1024x3200_S512x3200_1_0_0_1_n_n 1024 rfl rfl).symm k) = ix2 k q := by
    funext a; apply Fin.ext
    match a with
    | ⟨0, _⟩ => exact (rhs_axis0 _ _).trans (contrEquiv1_symm_val _ 1024 rfl rfl k)
    | ⟨1, _⟩ => exact rhs_axis1 _ _
  rw [hl, hr]

/-! ## The launch -/

variable (V : (c : Dev nD) → (b : Ref sig .tc) → Buf (Elt Ideal) ((c : Thread nD τ).loc b))

private theorem hz : (![0, 0] : Fin 2 → Nat) = fun _ => 0 := funext fun a => by fin_cases a <;> rfl

/-- The printed index maps over the 80 grid points: the hidden rows move with the output's row blocks, the vocabulary
    columns and the bias with its column blocks, and the output's block indices stay below 8 and 10. -/
private theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 7 ∧ win2_3.index t (1 : Fin 2) ≤ 9 :=
  (by decide +kernel : ∀ t : Fin grid2.N, _)

/-- Every one of the 8 × 10 output blocks is some grid point's. -/
private theorem idx_onto : ∀ (q0 : Fin 8) (q1 : Fin 10), ∃ t : Fin cfg2.N, win2_3.index t = ![q0.val, q1.val] :=
  (by decide +kernel : ∀ (q0 : Fin 8) (q1 : Fin 10), ∃ t : Fin grid2.N, win2_3.index t = ![q0.val, q1.val])

/-- The staged hidden block at point `t`: row `p` of the block is row `512 i + p` of the hidden array, `i` the output's
    row block. -/
private theorem hidden_block (c : Dev nD) (t : Fin cfg2.N) (p : Fin 512) (k : Fin 1024) (r : Fin 4096)
    (hr : r.val = win2_3.index t (0 : Fin 2) * 512 + p.val) :
    (iblk2 V c 0 t : S512x1024.Idx → EReal) (ix2 p k) = (V c main_v17 : SBH.Idx → EReal) (ix2 r k) := by
  obtain ⟨e0, e1, -⟩ := idx_facts t
  unfold iblk2
  rw [View.read_apply]
  show V c main_v17 _ = V c main_v17 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The staged block of the transposed vocabulary matrix: column `q` of the block is column `3200 j + q` of the matrix,
    `j` the output's column block. -/
private theorem vocab_block (c : Dev nD) (t : Fin cfg2.N) (k : Fin 1024) (q : Fin 3200) (n : Fin 32000)
    (hn : n.val = win2_3.index t (1 : Fin 2) * 3200 + q.val) :
    (iblk2 V c 1 t : S1024x3200.Idx → EReal) (ix2 k q) = (V c main_v19 : SVt.Idx → EReal) (ix2 k n) := by
  obtain ⟨-, -, e0, e1, -⟩ := idx_facts t
  unfold iblk2
  rw [View.read_apply]
  show V c main_v19 _ = V c main_v19 _
  congr 1
  funext a
  apply Fin.ext
  match a with
  | ⟨0, _⟩ => show win2_1.index t (0 : Fin 2) * 1024 + 1 * k.val = k.val; rw [e0]; omega
  | ⟨1, _⟩ => show win2_1.index t (1 : Fin 2) * 3200 + 1 * q.val = n.val; rw [e1, hn]; omega

/-- The staged block of the bias row: column `q` of the block is column `3200 j + q` of the row. -/
private theorem bias_block (c : Dev nD) (t : Fin cfg2.N) (q : Fin 3200) (n : Fin 32000)
    (hn : n.val = win2_3.index t (1 : Fin 2) * 3200 + q.val) :
    (iblk2 V c 2 t : S1x3200.Idx → EReal) (ix2 (0 : Fin 1) q) = (V c main_v20 : SVbt.Idx → EReal) (ix2 (0 : Fin 1) n) := by
  obtain ⟨-, -, -, -, e0, e1, -⟩ := idx_facts t
  unfold iblk2
  rw [View.read_apply]
  show V c main_v20 _ = V c main_v20 _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 3200 + 1 * q.val = n.val; rw [e1, hn]; omega

/-- What point `t` writes back is block `t` of the projection of the whole arrays. -/
private theorem flushed_eq (c : Dev nD) (t : Fin cfg2.N) :
    (dat2 (F := Ideal) V c).flushed 3 t
      = ((cfg2.win 3).blk t).view.read (Elt Ideal) (decodeT (V c main_v17) (V c main_v19) (V c main_v20)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x3200) hz, View.ld_unit_zero (S := S1x3200) hz]
  refine funext fun (y : S512x3200.Idx) => ?_
  obtain ⟨p, q, rfl⟩ : ∃ (p : Fin 512) (q : Fin 3200), y = ix2 p q := ⟨y 0, y 1, eq_ix2 y⟩
  obtain ⟨-, -, -, -, -, -, b0, b1⟩ := idx_facts t
  have hr : win2_3.index t (0 : Fin 2) * 512 + p.val < 4096 := by omega
  have hn : win2_3.index t (1 : Fin 2) * 3200 + q.val < 32000 := by omega
  have hx : (cfg2.win 3).xinj (grid2.coords t) (ix2 p q : S512x3200.Idx) = (ix2 p q : S512x3200.Idx) := by
    funext a
    match a with
    | ⟨0, _⟩ => rfl
    | ⟨1, _⟩ => rfl
  have hemb : ((cfg2.win 3).blk t).view.emb (ix2 p q : S512x3200.Idx)
      = (ix2 (⟨win2_3.index t (0 : Fin 2) * 512 + p.val, hr⟩ : Fin 4096) (⟨win2_3.index t (1 : Fin 2) * 3200 + q.val, hn⟩ : Fin 32000) : SO.Idx) := by
    funext a
    apply Fin.ext
    match a with
    | ⟨0, _⟩ => show win2_3.index t (0 : Fin 2) * 512 + 1 * p.val = win2_3.index t (0 : Fin 2) * 512 + p.val; omega
    | ⟨1, _⟩ => show win2_3.index t (1 : Fin 2) * 3200 + 1 * q.val = win2_3.index t (1 : Fin 2) * 3200 + q.val; omega
  rw [View.read_apply]
  show k2_pay1 (iblk2 V c 0 t) (iblk2 V c 1 t) (iblk2 V c 2 t) ((cfg2.win 3).xinj (grid2.coords t) (ix2 p q : S512x3200.Idx))
    = decodeT (V c main_v17) (V c main_v19) (V c main_v20) (((cfg2.win 3).blk t).view.emb (ix2 p q : S512x3200.Idx))
  rw [hx, hemb, decodeT_apply]
  refine (pay_apply (iblk2 V c 0 t) (iblk2 V c 1 t) (iblk2 V c 2 t) p q).trans ?_
  unfold decodeTAt
  exact congrArg₂ (· + ·)
    (Finset.sum_congr rfl fun k _ => congrArg₂ (· * ·) (hidden_block V c t p k _ rfl) (vocab_block V c t k q _ rfl))
    (bias_block V c t q _ rfl)

/-- An index of the output array is in point `t`'s block iff each coordinate is in the block's range on its axis. -/
private theorem mem_blk (t : Fin cfg2.N) (i : S4096x32000.Idx) :
    i ∈ ((cfg2.win 3).blk t).view.set ↔ ∀ a : Fin 2, win2_3.index t a * S512x3200.size a ≤ (i a).val
      ∧ (i a).val < win2_3.index t a * S512x3200.size a + S512x3200.size a := by
  show i ∈ ((View.whole main_v21).slice (win2_3.rect t)).set ↔ _
  rw [View.set_slice_whole, Rect.mem_set_unit]
  exact Iff.rfl

/-- The 80 blocks tile the output: row `r`, column `n` lies in the block of the point whose row block is `r / 512` and
    column block `n / 3200`. -/
private theorem cover (i : S4096x32000.Idx) :
    ∃ t : Fin cfg2.N, (cfg2.win 3).flush t = true ∧ i ∈ ((cfg2.win 3).blk t).view.set := by
  have hi0 : (i 0).val < 4096 := (i 0).isLt
  have hi1 : (i 1).val < 32000 := (i 1).isLt
  obtain ⟨t, ht⟩ := idx_onto ⟨(i 0).val / 512, by omega⟩ ⟨(i 1).val / 3200, by omega⟩
  have q0 : win2_3.index t (0 : Fin 2) = (i 0).val / 512 := congrFun ht 0
  have q1 : win2_3.index t (1 : Fin 2) = (i 1).val / 3200 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 3200 ≤ (i 1).val ∧ (i 1).val < win2_3.index t (1 : Fin 2) * 3200 + 3200; omega

/-- The projected array (output window 3) after the projection's launch. -/
theorem decoded (c : Dev nD) :
    (dat2 (F := Ideal) V c).arrAt 3 cfg2.N = decodeT (V c main_v17) (V c main_v19) (V c main_v20) :=
  (dat2 (F := Ideal) V c).arrAt_eq_of_cover 3 (decodeT (V c main_v17) (V c main_v19) (V c main_v20))
    (fun t _ => flushed_eq V c t) cover

end Cert.KernelIdeal.Decode

end
-- ==== Proof.KernelValue.lean ====
/-
  The five result arrays of the kernel program after its run, as the model's formulas of the launch arrays.

  The run's last boundary contents are a fold from the launch memory: a stretch of host operations, the first cell's
  launch, a stretch, the second cell's launch, a stretch, the projection's launch. Walking a result array back through
  the fold: the projection's output is `decodeT` of what its region finds; what it finds are host casts and transposes
  of the second cell's new hidden array and of the vocabulary arguments; the second cell's outputs are `newHT` / `newCT`
  of the first cell's new hidden array and of host reshapes of the second cell's weights; and so on down to the launch
  arrays. A host reshape of the six weight matrices to 6144 × 2048 followed by a transposition reads, at row `k` and
  column `g · 1024 + j`, the weight `W g j k`; so the transposed forms are the model's.
-/
import proofs.«113015_j28484223107779_1_alg».proof.Proof.Gen.KernelIdeal.Frame
import proofs.«113015_j28484223107779_1_alg».proof.Proof.Spec
import proofs.«113015_j28484223107779_1_alg».proof.Proof.Cell0
import proofs.«113015_j28484223107779_1_alg».proof.Proof.Cell1
import proofs.«113015_j28484223107779_1_alg».proof.Proof.Decode
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx Cert.Spec
open Idealize.ShloMosaic.Pipeline (Dat)

variable (m : (ℓ : Loc nD τ sig) → Buf (Elt Ideal) ℓ) (ρ : Dev nD → PrngReg)

/-- The embedded rows: the table gathered at the token indices, a negative index first moved up by the table's height
    (the operations both programs apply; never opened). -/
def embOf (tbl : S32000x1024.Idx → EReal) (ids : S4096.Idx → BitVec 32) : S4096x1024.Idx → EReal :=
  Host.gather gather_S32000x1024_S4096x1_S4096x1024_1_0_n_n_0_1_11024 tbl
    (broadcastInDim S4096x1 ![0] bcast_S4096_S4096x1_0
      (select (cmpi .slt ids (broadcastInDim S4096 ![] bcast_S_S4096 (constantI S_ 32 0#32)))
        (addi ids (broadcastInDim S4096 ![] bcast_S_S4096 (constantI S_ 32 32000#32))) ids))

/-- The six weight matrices as the kernels are handed them: reshaped to 6144 × 2048, transposed, cast (the identity). -/
def flatW (W : S6x1024x2048.Idx → EReal) : S2048x6144.Idx → EReal :=
  truncf (F := Ideal) .bf16 (transpose S2048x6144 [1, 0] (shapeCast S6144x2048 W shapeCasts_S6x1024x2048_S6144x2048) transposes_S6144x2048_S2048x6144_1_0) bitsLt_bf16_f32

/-- The six bias rows as one row. -/
def flatB (b : S6x1024.Idx → EReal) : S1x6144.Idx → EReal := shapeCast S1x6144 b shapeCasts_S6x1024_S1x6144

/-! ## What the first region finds -/

theorem V1_v6 (c : Dev nD) : V1 m ρ c main_v6 = embOf (m ((c : Thread nD τ).loc main_arg5)) (m ((c : Thread nD τ).loc main_arg0)) := by
  show StableHlo.after hostOps0 (W0 m ρ c) (Proc.devRef .tc main_v6) = _
  after_results
  rfl

theorem V1_v9 (c : Dev nD) : V1 m ρ c main_v9 = flatW (m ((c : Thread nD τ).loc main_arg6)) := by
  show StableHlo.after hostOps0 (W0 m ρ c) (Proc.devRef .tc main_v9) = _
  after_results
  rfl

theorem V1_v10 (c : Dev nD) : V1 m ρ c main_v10 = flatB (m ((c : Thread nD τ).loc main_arg7)) := by
  show StableHlo.after hostOps0 (W0 m ρ c) (Proc.devRef .tc main_v10) = _
  after_results
  rfl

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

/-! ## The layouts the kernels are handed, read at an index -/

theorem flatW_apply (W : S6x1024x2048.Idx → EReal) (g : Fin 6) (j : Fin 1024) (k : Fin 2048) :
    flatW W (ix2 k (gcol g j)) = W (ix3 g j k) := by
  unfold flatW
  rw [truncf_apply]
  refine (transpose_apply [1, 0] _ _ (ix2 k (gcol g j)) (ix2 (gcol g j) k) ?_).trans ?_
  · intro b
    match b with
    | ⟨0, _⟩ => rfl
    | ⟨1, _⟩ => rfl
  · refine shapeCast_apply _ _ _ (ix3 g j k) ?_
    rw [Shape.rowMajor_val_three, Shape.rowMajor_val_two]
    rfl

theorem flatB_apply (b : S6x1024.Idx → EReal) (g : Fin 6) (j : Fin 1024) :
    flatB b (ix2 (0 : Fin 1) (gcol g j)) = b (ix2 g j) := by
  unfold flatB
  refine shapeCast_apply _ _ _ (ix2 g j) ?_
  rw [Shape.rowMajor_val_two, Shape.rowMajor_val_two]
  show g.val * 1024 + j.val = 0 * 6144 + (g.val * 1024 + j.val)
  omega

/-! ## The first cell -/

/-- An argument array no host operation of the first stretch writes is as launched when the first region is entered. -/
theorem W1_arg3 (c : Dev nD) : W1 m ρ c (Proc.devRef .tc main_arg3) = m ((c : Thread nD τ).loc main_arg3) := by
  show StableHlo.after hostOps0 (W0 m ρ c) (Proc.devRef .tc main_arg3) = _; after_results
theorem W1_arg4 (c : Dev nD) : W1 m ρ c (Proc.devRef .tc main_arg4) = m ((c : Thread nD τ).loc main_arg4) := by
  show StableHlo.after hostOps0 (W0 m ρ c) (Proc.devRef .tc main_arg4) = _; after_results
theorem W1_arg8 (c : Dev nD) : W1 m ρ c (Proc.devRef .tc main_arg8) = m ((c : Thread nD τ).loc main_arg8) := by
  show StableHlo.after hostOps0 (W0 m ρ c) (Proc.devRef .tc main_arg8) = _; after_results
theorem W1_arg9 (c : Dev nD) : W1 m ρ c (Proc.devRef .tc main_arg9) = m ((c : Thread nD τ).loc main_arg9) := by
  show StableHlo.after hostOps0 (W0 m ρ c) (Proc.devRef .tc main_arg9) = _; after_results
theorem W1_arg10 (c : Dev nD) : W1 m ρ c (Proc.devRef .tc main_arg10) = m ((c : Thread nD τ).loc main_arg10) := by
  show StableHlo.after hostOps0 (W0 m ρ c) (Proc.devRef .tc main_arg10) = _; after_results
theorem W1_arg11 (c : Dev nD) : W1 m ρ c (Proc.devRef .tc main_arg11) = m ((c : Thread nD τ).loc main_arg11) := by
  show StableHlo.after hostOps0 (W0 m ρ c) (Proc.devRef .tc main_arg11) = _; after_results

/-- The launch arrays the model's first cell reads. -/
abbrev E (c : Dev nD) : S4096x1024.Idx → EReal := embOf (m ((c : Thread nD τ).loc main_arg5)) (m ((c : Thread nD τ).loc main_arg0))

/-- The first cell's new hidden array when its region is left. -/
theorem W2_v11_0 (c : Dev nD) : W2 m ρ c (Proc.devRef .tc main_v11_0)
    = newH (E m c) (m ((c : Thread nD τ).loc main_arg1)) (m ((c : Thread nD τ).loc main_arg2))
        (m ((c : Thread nD τ).loc main_arg6)) (m ((c : Thread nD τ).loc main_arg7)) := by
  refine ((W2_arr m ρ c 5).trans (Cell0.newh (V1 m ρ) c)).trans ?_
  rw [V1_v6, V1_arg1, V1_arg2, V1_v9, V1_v10]
  exact newHT_eq (flatW_apply _) (flatB_apply _)

/-- The first cell's new cell array when its region is left. -/
theorem W2_v11_1 (c : Dev nD) : W2 m ρ c (Proc.devRef .tc main_v11_1)
    = newC (E m c) (m ((c : Thread nD τ).loc main_arg1)) (m ((c : Thread nD τ).loc main_arg2))
        (m ((c : Thread nD τ).loc main_arg6)) (m ((c : Thread nD τ).loc main_arg7)) := by
  refine ((W2_arr m ρ c 6).trans (Cell0.newc (V1 m ρ) c)).trans ?_
  rw [V1_v6, V1_arg1, V1_arg2, V1_v9, V1_v10]
  exact newCT_eq (flatW_apply _) (flatB_apply _)

/-! ## The second cell -/

theorem V3_v11_0 (c : Dev nD) : V3 m ρ c main_v11_0
    = newH (E m c) (m ((c : Thread nD τ).loc main_arg1)) (m ((c : Thread nD τ).loc main_arg2))
        (m ((c : Thread nD τ).loc main_arg6)) (m ((c : Thread nD τ).loc main_arg7)) := by
  refine Eq.trans ?_ (W2_v11_0 m ρ c)
  show StableHlo.after hostOps1 (W2 m ρ c) (Proc.devRef .tc main_v11_0) = _
  after_results

theorem V3_arg3 (c : Dev nD) : V3 m ρ c main_arg3 = m ((c : Thread nD τ).loc main_arg3) := by
  refine Eq.trans ?_ ((W2_of_ne m ρ c main_arg3 (by decide)).trans (W1_arg3 m ρ c))
  show StableHlo.after hostOps1 (W2 m ρ c) (Proc.devRef .tc main_arg3) = _
  after_results

theorem V3_arg4 (c : Dev nD) : V3 m ρ c main_arg4 = m ((c : Thread nD τ).loc main_arg4) := by
  refine Eq.trans ?_ ((W2_of_ne m ρ c main_arg4 (by decide)).trans (W1_arg4 m ρ c))
  show StableHlo.after hostOps1 (W2 m ρ c) (Proc.devRef .tc main_arg4) = _
  after_results

theorem V3_v14 (c : Dev nD) : V3 m ρ c main_v14 = flatW (m ((c : Thread nD τ).loc main_arg8)) := by
  rw [← W1_arg8 m ρ c, ← W2_of_ne m ρ c main_arg8 (by decide)]
  show StableHlo.after hostOps1 (W2 m ρ c) (Proc.devRef .tc main_v14) = _
  after_results
  rfl

theorem V3_v15 (c : Dev nD) : V3 m ρ c main_v15 = flatB (m ((c : Thread nD τ).loc main_arg9)) := by
  rw [← W1_arg9 m ρ c, ← W2_of_ne m ρ c main_arg9 (by decide)]
  show StableHlo.after hostOps1 (W2 m ρ c) (Proc.devRef .tc main_v15) = _
  after_results
  rfl

/-- The second cell's new hidden array when its region is left. -/
theorem W4_v16_0 (c : Dev nD) : W4 m ρ c (Proc.devRef .tc main_v16_0)
    = cell2H (E m c) (m ((c : Thread nD τ).loc main_arg1)) (m ((c : Thread nD τ).loc main_arg2))
        (m ((c : Thread nD τ).loc main_arg3)) (m ((c : Thread nD τ).loc main_arg4))
        (m ((c : Thread nD τ).loc main_arg6)) (m ((c : Thread nD τ).loc main_arg7))
        (m ((c : Thread nD τ).loc main_arg8)) (m ((c : Thread nD τ).loc main_arg9)) := by
  refine ((W4_arr m ρ c 5).trans (Cell1.newh (V3 m ρ) c)).trans ?_
  rw [V3_v11_0, V3_arg3, V3_arg4, V3_v14, V3_v15]
  exact newHT_eq (flatW_apply _) (flatB_apply _)

/-- The second cell's new cell array when its region is left. -/
theorem W4_v16_1 (c : Dev nD) : W4 m ρ c (Proc.devRef .tc main_v16_1)
    = cell2C (E m c) (m ((c : Thread nD τ).loc main_arg1)) (m ((c : Thread nD τ).loc main_arg2))
        (m ((c : Thread nD τ).loc main_arg3)) (m ((c : Thread nD τ).loc main_arg4))
        (m ((c : Thread nD τ).loc main_arg6)) (m ((c : Thread nD τ).loc main_arg7))
        (m ((c : Thread nD τ).loc main_arg8)) (m ((c : Thread nD τ).loc main_arg9)) := by
  refine ((W4_arr m ρ c 6).trans (Cell1.newc (V3 m ρ) c)).trans ?_
  rw [V3_v11_0, V3_arg3, V3_arg4, V3_v14, V3_v15]
  exact newCT_eq (flatW_apply _) (flatB_apply _)

/-! ## The projection -/

/-- The vocabulary matrix as the projection is handed it: transposed, cast (the identity). -/
def flatV (Wd : S32000x1024.Idx → EReal) : S1024x32000.Idx → EReal :=
  truncf (F := Ideal) .bf16 (transpose S1024x32000 [1, 0] Wd transposes_S32000x1024_S1024x32000_1_0) bitsLt_bf16_f32

theorem flatV_apply (Wd : S32000x1024.Idx → EReal) (n : Fin 32000) (k : Fin 1024) : flatV Wd (ix2 k n) = Wd (ix2 n k) := by
  unfold flatV
  rw [truncf_apply]
  refine transpose_apply [1, 0] _ _ (ix2 k n) (ix2 n k) ?_
  intro b
  match b with
  | ⟨0, _⟩ => rfl
  | ⟨1, _⟩ => rfl

/-- The vocabulary bias as one row. -/
def rowV (bd : S32000.Idx → EReal) : S1x32000.Idx → EReal := shapeCast S1x32000 bd shapeCasts_S32000_S1x32000

theorem rowV_apply (bd : S32000.Idx → EReal) (n : Fin 32000) : rowV bd (ix2 (0 : Fin 1) n) = bd (ix1 n) := by
  unfold rowV
  refine shapeCast_apply _ _ _ (ix1 n) ?_
  rw [Shape.rowMajor_val_two, Shape.rowMajor_val_one]
  show n.val = 0 * 32000 + n.val
  omega

theorem W4_arg10 (c : Dev nD) : W4 m ρ c (Proc.devRef .tc main_arg10) = m ((c : Thread nD τ).loc main_arg10) := by
  refine (W4_of_ne m ρ c main_arg10 (by decide)).trans ?_
  refine Eq.trans ?_ ((W2_of_ne m ρ c main_arg10 (by decide)).trans (W1_arg10 m ρ c))
  show StableHlo.after hostOps1 (W2 m ρ c) (Proc.devRef .tc main_arg10) = _
  after_results

theorem W4_arg11 (c : Dev nD) : W4 m ρ c (Proc.devRef .tc main_arg11) = m ((c : Thread nD τ).loc main_arg11) := by
  refine (W4_of_ne m ρ c main_arg11 (by decide)).trans ?_
  refine Eq.trans ?_ ((W2_of_ne m ρ c main_arg11 (by decide)).trans (W1_arg11 m ρ c))
  show StableHlo.after hostOps1 (W2 m ρ c) (Proc.devRef .tc main_arg11) = _
  after_results

theorem V5_v17 (c : Dev nD) : V5 m ρ c main_v17 = W4 m ρ c (Proc.devRef .tc main_v16_0) := by
  show StableHlo.after hostOps2 (W4 m ρ c) (Proc.devRef .tc main_v17) = _
  after_results
  rfl

theorem V5_v19 (c : Dev nD) : V5 m ρ c main_v19 = flatV (m ((c : Thread nD τ).loc main_arg10)) := by
  rw [← W4_arg10 m ρ c]
  show StableHlo.after hostOps2 (W4 m ρ c) (Proc.devRef .tc main_v19) = _
  after_results
  rfl

theorem V5_v20 (c : Dev nD) : V5 m ρ c main_v20 = rowV (m ((c : Thread nD τ).loc main_arg11)) := by
  rw [← W4_arg11 m ρ c]
  show StableHlo.after hostOps2 (W4 m ρ c) (Proc.devRef .tc main_v20) = _
  after_results
  rfl

/-! ## The five results at the last boundary -/

theorem res_v21 (c : Dev nD) : W6 m ρ c (Proc.devRef .tc main_v21)
    = logits (E m c) (m ((c : Thread nD τ).loc main_arg1)) (m ((c : Thread nD τ).loc main_arg2))
        (m ((c : Thread nD τ).loc main_arg3)) (m ((c : Thread nD τ).loc main_arg4))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  refine ((W6_arr m ρ c 3).trans (Decode.decoded (V5 m ρ) c)).trans ?_
  rw [V5_v17, V5_v19, V5_v20, W4_v16_0]
  exact decodeT_eq (flatV_apply _) (rowV_apply _)

theorem res_v16_0 (c : Dev nD) : W6 m ρ c (Proc.devRef .tc main_v16_0)
    = cell2H (E m c) (m ((c : Thread nD τ).loc main_arg1)) (m ((c : Thread nD τ).loc main_arg2))
        (m ((c : Thread nD τ).loc main_arg3)) (m ((c : Thread nD τ).loc main_arg4))
        (m ((c : Thread nD τ).loc main_arg6)) (m ((c : Thread nD τ).loc main_arg7))
        (m ((c : Thread nD τ).loc main_arg8)) (m ((c : Thread nD τ).loc main_arg9)) := by
  refine (W6_of_ne m ρ c main_v16_0 (by decide)).trans ?_
  refine Eq.trans ?_ (W4_v16_0 m ρ c)
  show StableHlo.after hostOps2 (W4 m ρ c) (Proc.devRef .tc main_v16_0) = _
  after_results

theorem res_v16_1 (c : Dev nD) : W6 m ρ c (Proc.devRef .tc main_v16_1)
    = cell2C (E m c) (m ((c : Thread nD τ).loc main_arg1)) (m ((c : Thread nD τ).loc main_arg2))
        (m ((c : Thread nD τ).loc main_arg3)) (m ((c : Thread nD τ).loc main_arg4))
        (m ((c : Thread nD τ).loc main_arg6)) (m ((c : Thread nD τ).loc main_arg7))
        (m ((c : Thread nD τ).loc main_arg8)) (m ((c : Thread nD τ).loc main_arg9)) := by
  refine (W6_of_ne m ρ c main_v16_1 (by decide)).trans ?_
  refine Eq.trans ?_ (W4_v16_1 m ρ c)
  show StableHlo.after hostOps2 (W4 m ρ c) (Proc.devRef .tc main_v16_1) = _
  after_results

theorem res_v11_0 (c : Dev nD) : W6 m ρ c (Proc.devRef .tc main_v11_0)
    = newH (E m c) (m ((c : Thread nD τ).loc main_arg1)) (m ((c : Thread nD τ).loc main_arg2))
        (m ((c : Thread nD τ).loc main_arg6)) (m ((c : Thread nD τ).loc main_arg7)) := by
  refine (W6_of_ne m ρ c main_v11_0 (by decide)).trans ?_
  have h5 : W5 m ρ c (Proc.devRef .tc main_v11_0) = W4 m ρ c (Proc.devRef .tc main_v11_0) := by
    show StableHlo.after hostOps2 (W4 m ρ c) (Proc.devRef .tc main_v11_0) = _
    after_results
  refine h5.trans ?_
  refine ((W4_arr m ρ c 0).trans (((dat1 (V3 m ρ) c).arrAt_in 0 rfl _).trans (A_eq1 (V3 m ρ) c 0))).trans ?_
  exact V3_v11_0 m ρ c

theorem res_v11_1 (c : Dev nD) : W6 m ρ c (Proc.devRef .tc main_v11_1)
    = newC (E m c) (m ((c : Thread nD τ).loc main_arg1)) (m ((c : Thread nD τ).loc main_arg2))
        (m ((c : Thread nD τ).loc main_arg6)) (m ((c : Thread nD τ).loc main_arg7)) := by
  refine (W6_of_ne m ρ c main_v11_1 (by decide)).trans ?_
  have h5 : W5 m ρ c (Proc.devRef .tc main_v11_1) = W4 m ρ c (Proc.devRef .tc main_v11_1) := by
    show StableHlo.after hostOps2 (W4 m ρ c) (Proc.devRef .tc main_v11_1) = _
    after_results
  refine h5.trans ?_
  refine (W4_of_ne m ρ c main_v11_1 (by decide)).trans ?_
  refine Eq.trans ?_ (W2_v11_1 m ρ c)
  show StableHlo.after hostOps1 (W2 m ρ c) (Proc.devRef .tc main_v11_1) = _
  after_results

end Cert.KernelIdeal.KValue

end
-- ==== Proof.RefRead.lean ====
/-
  The reference's five results as the model's formulas (`Spec`) of its argument arrays.

  The reference concatenates a cell's two operands along the columns and contracts the 2048 columns against a 3 × 1024 × 2048
  slice of the weights in one product; at an index that is one sum over 2048 terms, the two halves of which are the
  sums over the input row and over the second operand's row (`Spec.sum_halves`). Its sigmoid is spelt out as
  `1 / (1 + exp (−z))`, which is the extended reals' logistic function by definition. The embedding lookup is carried as
  one opaque array `embOf`: both programs apply the same operations to the same table and indices.
-/
import proofs.«113015_j28484223107779_1_alg».proof.Proof.RefRun
import proofs.«113015_j28484223107779_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem
open Idealize.ShloMosaic.StableHlo Idealize.ShloMosaic.ValueIdx Cert.Spec

/-- The embedded rows: the table gathered at the token indices, a negative index first moved up by the table's height
    (the operations both programs apply; never opened). -/
def embOf (tbl : S32000x1024.Idx → EReal) (ids : S4096.Idx → BitVec 32) : S4096x1024.Idx → EReal :=
  Host.gather gather_S32000x1024_S4096x1_S4096x1024_1_0_n_n_0_1_11024 tbl
    (broadcastInDim S4096x1 ![0] bcast_S4096_S4096x1_0
      (select (cmpi .slt ids (broadcastInDim S4096 ![] bcast_S_S4096 (constantI S_ 32 0#32)))
        (addi ids (broadcastInDim S4096 ![] bcast_S_S4096 (constantI S_ 32 32000#32))) ids))

/-- The three-gate product at an index: one sum over the 2048 contracted columns. -/
private theorem dot3_apply (A : FVec Ideal S4096x2048 .f32) (B : FVec Ideal S3x1024x2048 .f32) (r : Fin 4096) (g : Fin 3) (j : Fin 1024) :
    Host.dotGeneral dot_S4096x2048_S3x1024x2048_S4096x3x1024_1_2_0_01_n_n none A B (ix3 r g j)
      = ∑ k : Fin 2048, A (ix2 r k) * B (ix3 g j k) := by
  show FloatOps.dotGeneral dot_S4096x2048_S3x1024x2048_S4096x3x1024_1_2_0_01_n_n none .single A B (ix3 r g j) = _
  rw [Ideal.dotGeneral_apply,
    ← Equiv.sum_comp (contrEquiv1 dot_S4096x2048_S3x1024x2048_S4096x3x1024_1_2_0_01_n_n 2048 rfl rfl).symm]
  refine Finset.sum_congr rfl fun k _ => ?_
  have ck := contrEquiv1_symm_val dot_S4096x2048_S3x1024x2048_S4096x3x1024_1_2_0_01_n_n 2048 rfl rfl k
  have hl : dot_S4096x2048_S3x1024x2048_S4096x3x1024_1_2_0_01_n_n.lhsIdx (ix3 r g j)
      ((contrEquiv1 _ 2048 rfl rfl).symm k) = ix2 r k := by
    funext ax; apply Fin.ext
    match ax with
    | ⟨0, _⟩ => simp [DotDims.lhsIdx, dot_S4096x2048_S3x1024x2048_S4096x3x1024_1_2_0_01_n_n]; rfl
    | ⟨1, _⟩ => simp [DotDims.lhsIdx, dot_S4096x2048_S3x1024x2048_S4096x3x1024_1_2_0_01_n_n]; exact ck
  have hr : dot_S4096x2048_S3x1024x2048_S4096x3x1024_1_2_0_01_n_n.rhsIdx (ix3 r g j)
      ((contrEquiv1 _ 2048 rfl rfl).symm k) = ix3 g j k := by
    funext ax; apply Fin.ext
    match ax with
    | ⟨0, _⟩ => simp [DotDims.rhsIdx, dot_S4096x2048_S3x1024x2048_S4096x3x1024_1_2_0_01_n_n]; rfl
    | ⟨1, _⟩ => simp [DotDims.rhsIdx, dot_S4096x2048_S3x1024x2048_S4096x3x1024_1_2_0_01_n_n]; rfl
    | ⟨2, _⟩ => simp [DotDims.rhsIdx, dot_S4096x2048_S3x1024x2048_S4096x3x1024_1_2_0_01_n_n]; exact ck
  rw [hl, hr]

/-- Gate `g` of a cell's first three gates, as one of the six. -/
private abbrev glo (g : Fin 3) : Fin 6 := ⟨g.val, by omega⟩
/-- Gate `g` of a cell's last three gates, as one of the six. -/
private abbrev ghi (g : Fin 3) : Fin 6 := ⟨3 + g.val, by omega⟩

/-- The concatenation along the columns at a column of its first half reads the first piece. -/
private theorem cat_lo (x y : S4096x1024.Idx → EReal) (r : Fin 4096) (k : Fin 1024) :
    concatenate S4096x2048 1 [⟨S4096x1024, x⟩, ⟨S4096x1024, y⟩] concatenates_S4096x1024_S4096x1024_S4096x2048_d1 (ix2 r (lo k))
      = x (ix2 r k) :=
  concatenate_pair_apply_left 1 x y _ (ix2 r (lo k)) rfl (ix2 r k) (fun b => match b with | ⟨0, _⟩ => rfl | ⟨1, _⟩ => rfl)

/-- At a column of its second half it reads the second piece, 1024 columns back. -/
private theorem cat_hi (x y : S4096x1024.Idx → EReal) (r : Fin 4096) (k : Fin 1024) :
    concatenate S4096x2048 1 [⟨S4096x1024, x⟩, ⟨S4096x1024, y⟩] concatenates_S4096x1024_S4096x1024_S4096x2048_d1 (ix2 r (hi k))
      = y (ix2 r k) :=
  concatenate_pair_apply_right 1 x y _ (ix2 r (hi k)) rfl rfl (ix2 r k)
    (fun b hb => match b, hb with | ⟨0, _⟩, _ => rfl | ⟨1, _⟩, hb => absurd rfl hb)
    (by show k.val + 1024 = 1024 + k.val; omega)

/-- The first three weight matrices at an index. -/
private theorem sliceW0_apply (W : S6x1024x2048.Idx → EReal) (g : Fin 3) (j : Fin 1024) (k : Fin 2048) :
    extractStridedSlice S3x1024x2048 ![0, 0, 0] W slices_S6x1024x2048_S3x1024x2048_0_0_0 (ix3 g j k) = W (ix3 (glo g) j k) :=
  extractStridedSlice_apply _ _ _ _ (ix3 (glo g) j k) (fun a => match a with
    | ⟨0, _⟩ => by show g.val = 0 + g.val; omega
    | ⟨1, _⟩ => by show j.val = 0 + j.val; omega
    | ⟨2, _⟩ => by show k.val = 0 + k.val; omega)

/-- The last three weight matrices at an index. -/
private theorem sliceW3_apply (W : S6x1024x2048.Idx → EReal) (g : Fin 3) (j : Fin 1024) (k : Fin 2048) :
    extractStridedSlice S3x1024x2048 ![3, 0, 0] W slices_S6x1024x2048_S3x1024x2048_3_0_0 (ix3 g j k) = W (ix3 (ghi g) j k) :=
  extractStridedSlice_apply _ _ _ _ (ix3 (ghi g) j k) (fun a => match a with
    | ⟨0, _⟩ => by show 3 + g.val = 3 + g.val; omega
    | ⟨1, _⟩ => by show j.val = 0 + j.val; omega
    | ⟨2, _⟩ => by show k.val = 0 + k.val; omega)

/-- The first three bias rows, broadcast over the batch, at an index. -/
private theorem bias0_apply (b : S6x1024.Idx → EReal) (r : Fin 4096) (g : Fin 3) (j : Fin 1024) :
    broadcastInDim S4096x3x1024 ![0, 1, 2] bcast_S1x3x1024_S4096x3x1024_0_1_2 (broadcastInDim S1x3x1024 ![1, 2] bcast_S3x1024_S1x3x1024_1_2
      (extractStridedSlice S3x1024 ![0, 0] b slices_S6x1024_S3x1024_0_0)) (ix3 r g j) = b (ix2 (glo g) j) := by
  refine (broadcastInDim_apply _ _ _ (ix3 r g j) (ix3 (0 : Fin 1) g j) (fun a => match a with
    | ⟨0, _⟩ => rfl | ⟨1, _⟩ => rfl | ⟨2, _⟩ => rfl)).trans ?_
  refine (broadcastInDim_apply _ _ _ (ix3 (0 : Fin 1) g j) (ix2 g j) (fun a => match a with
    | ⟨0, _⟩ => rfl | ⟨1, _⟩ => rfl)).trans ?_
  exact extractStridedSlice_apply _ _ _ _ (ix2 (glo g) j) (fun a => match a with
    | ⟨0, _⟩ => by show g.val = 0 + g.val; omega
    | ⟨1, _⟩ => by show j.val = 0 + j.val; omega)

/-- The last three bias rows, broadcast over the batch, at an index. -/
private theorem bias3_apply (b : S6x1024.Idx → EReal) (r : Fin 4096) (g : Fin 3) (j : Fin 1024) :
    broadcastInDim S4096x3x1024 ![0, 1, 2] bcast_S1x3x1024_S4096x3x1024_0_1_2 (broadcastInDim S1x3x1024 ![1, 2] bcast_S3x1024_S1x3x1024_1_2
      (extractStridedSlice S3x1024 ![3, 0] b slices_S6x1024_S3x1024_3_0)) (ix3 r g j) = b (ix2 (ghi g) j) := by
  refine (broadcastInDim_apply _ _ _ (ix3 r g j) (ix3 (0 : Fin 1) g j) (fun a => match a with
    | ⟨0, _⟩ => rfl | ⟨1, _⟩ => rfl | ⟨2, _⟩ => rfl)).trans ?_
  refine (broadcastInDim_apply _ _ _ (ix3 (0 : Fin 1) g j) (ix2 g j) (fun a => match a with
    | ⟨0, _⟩ => rfl | ⟨1, _⟩ => rfl)).trans ?_
  exact extractStridedSlice_apply _ _ _ _ (ix2 (ghi g) j) (fun a => match a with
    | ⟨0, _⟩ => by show 3 + g.val = 3 + g.val; omega
    | ⟨1, _⟩ => by show j.val = 0 + j.val; omega)

/-- One gate's plane of a three-gate array, its unit axis dropped, at an index. -/
private theorem gate_apply (o : Nat) (z : S4096x3x1024.Idx → EReal) (h : S4096x3x1024.Slices ![0, o, 0] S4096x1x1024) (g : Fin 3) (hg : g.val = o)
    (r : Fin 4096) (j : Fin 1024) :
    shapeCast S4096x1024 (extractStridedSlice S4096x1x1024 ![0, o, 0] z h) shapeCasts_S4096x1x1024_S4096x1024 (ix2 r j) = z (ix3 r g j) := by
  refine (shapeCast_apply _ _ (ix2 r j) (ix3 r (0 : Fin 1) j) (by
    rw [Shape.rowMajor_val_two, Shape.rowMajor_val_three]
    show (r.val * 1 + 0) * 1024 + j.val = r.val * 1024 + j.val
    omega)).trans ?_
  exact extractStridedSlice_apply _ _ _ _ (ix3 r g j) (fun a => match a with
    | ⟨0, _⟩ => by show r.val = 0 + r.val; omega
    | ⟨1, _⟩ => by show g.val = o + 0; omega
    | ⟨2, _⟩ => by show j.val = 0 + j.val; omega)

/-- The sigmoid spelt out as `1 / (1 + exp (−u))` is the logistic function. -/
private theorem sig_apply (u : FVec Ideal S4096x1024 .f32) (i : S4096x1024.Idx) :
    Host.divf (broadcastInDim S4096x1024 ![] bcast_S_S4096x1024 (constant S_ .f32 0x3F800000#32))
      (addf (broadcastInDim S4096x1024 ![] bcast_S_S4096x1024 (constant S_ .f32 0x3F800000#32)) (Host.exp (Host.negf u))) i
      = Ideal.logistic (u i) := by
  show Ideal.div (broadcastInDim S4096x1024 ![] bcast_S_S4096x1024 (constant (F := Ideal) S_ .f32 0x3F800000#32) i)
    (broadcastInDim S4096x1024 ![] bcast_S_S4096x1024 (constant (F := Ideal) S_ .f32 0x3F800000#32) i + Ideal.exp (-(u i))) = _
  rw [broadcastInDim_scalar_apply]
  show Ideal.div (Ideal.ofBits .f32 0x3F800000#32) (Ideal.ofBits .f32 0x3F800000#32 + Ideal.exp (-(u i))) = _
  rw [Ideal.ofBits_one_f32]
  rfl

/-- The projection's product at an index: one sum over the 1024 contracted columns. -/
private theorem dotD_apply (A : FVec Ideal S4096x1024 .f32) (B : FVec Ideal S1024x32000 .f32) (r : Fin 4096) (n : Fin 32000) :
    Host.dotGeneral dot_S4096x1024_S1024x32000_S4096x32000_1_0_0_1_n_n none A B (ix2 r n)
      = ∑ k : Fin 1024, A (ix2 r k) * B (ix2 k n) := by
  show FloatOps.dotGeneral dot_S4096x1024_S1024x32000_S4096x32000_1_0_0_1_n_n none .single A B (ix2 r n) = _
  rw [Ideal.dotGeneral_apply,
    ← Equiv.sum_comp (contrEquiv1 dot_S4096x1024_S1024x32000_S4096x32000_1_0_0_1_n_n 1024 rfl rfl).symm]
  refine Finset.sum_congr rfl fun k _ => ?_
  have ck := contrEquiv1_symm_val dot_S4096x1024_S1024x32000_S4096x32000_1_0_0_1_n_n 1024 rfl rfl k
  have hl : dot_S4096x1024_S1024x32000_S4096x32000_1_0_0_1_n_n.lhsIdx (ix2 r n)
      ((contrEquiv1 _ 1024 rfl rfl).symm k) = ix2 r k := by
    funext ax; apply Fin.ext
    match ax with
    | ⟨0, _⟩ => simp [DotDims.lhsIdx, dot_S4096x1024_S1024x32000_S4096x32000_1_0_0_1_n_n]; rfl
    | ⟨1, _⟩ => simp [DotDims.lhsIdx, dot_S4096x1024_S1024x32000_S4096x32000_1_0_0_1_n_n]; exact ck
  have hr : dot_S4096x1024_S1024x32000_S4096x32000_1_0_0_1_n_n.rhsIdx (ix2 r n)
      ((contrEquiv1 _ 1024 rfl rfl).symm k) = ix2 k n := by
    funext ax; apply Fin.ext
    match ax with
    | ⟨0, _⟩ => simp [DotDims.rhsIdx, dot_S4096x1024_S1024x32000_S4096x32000_1_0_0_1_n_n]; exact ck
    | ⟨1, _⟩ => simp [DotDims.rhsIdx, dot_S4096x1024_S1024x32000_S4096x32000_1_0_0_1_n_n]; rfl
  rw [hl, hr]

/-- The transposed vocabulary matrix at an index. -/
private theorem transD_apply (Wd : S32000x1024.Idx → EReal) (k : Fin 1024) (n : Fin 32000) :
    transpose S1024x32000 [1, 0] Wd transposes_S32000x1024_S1024x32000_1_0 (ix2 k n) = Wd (ix2 n k) :=
  transpose_apply _ _ _ (ix2 k n) (ix2 n k) (fun b => match b with | ⟨0, _⟩ => rfl | ⟨1, _⟩ => rfl)

/-- The vocabulary bias, broadcast over the batch, at an index. -/
private theorem biasD_apply (bd : S32000.Idx → EReal) (r : Fin 4096) (n : Fin 32000) :
    broadcastInDim S4096x32000 ![0, 1] bcast_S1x32000_S4096x32000_0_1 (broadcastInDim S1x32000 ![1] bcast_S32000_S1x32000_1 bd) (ix2 r n)
      = bd (ix1 n) := by
  refine (broadcastInDim_apply _ _ _ (ix2 r n) (ix2 (0 : Fin 1) n) (fun a => match a with
    | ⟨0, _⟩ => rfl | ⟨1, _⟩ => rfl)).trans ?_
  exact broadcastInDim_apply _ _ _ (ix2 (0 : Fin 1) n) (ix1 n) (fun a => match a with | ⟨0, _⟩ => rfl)

/-- The hyperbolic tangent at an index. -/
private theorem tanh_apply (u : FVec Ideal S4096x1024 .f32) (i : S4096x1024.Idx) : Host.tanh u i = Ideal.tanh (u i) := rfl

/-- The reference's pre-activation array of a cell's gates 0, 1, 2: the product of `x ++ y` with the first three weight
    matrices, plus the first three bias rows. -/
private def preArr0 (x y : FVec Ideal S4096x1024 .f32) (W : FVec Ideal S6x1024x2048 .f32) (b : FVec Ideal S6x1024 .f32) :
    FVec Ideal S4096x3x1024 .f32 :=
  addf (Host.dotGeneral dot_S4096x2048_S3x1024x2048_S4096x3x1024_1_2_0_01_n_n none (concatenate S4096x2048 1 [⟨S4096x1024, x⟩, ⟨S4096x1024, y⟩] concatenates_S4096x1024_S4096x1024_S4096x2048_d1) (extractStridedSlice S3x1024x2048 ![0, 0, 0] W slices_S6x1024x2048_S3x1024x2048_0_0_0)) (broadcastInDim S4096x3x1024 ![0, 1, 2] bcast_S1x3x1024_S4096x3x1024_0_1_2 (broadcastInDim S1x3x1024 ![1, 2] bcast_S3x1024_S1x3x1024_1_2 (extractStridedSlice S3x1024 ![0, 0] b slices_S6x1024_S3x1024_0_0)))

/-- The reference's pre-activation array of a cell's gates 3, 4, 5. -/
private def preArr3 (x y : FVec Ideal S4096x1024 .f32) (W : FVec Ideal S6x1024x2048 .f32) (b : FVec Ideal S6x1024 .f32) :
    FVec Ideal S4096x3x1024 .f32 :=
  addf (Host.dotGeneral dot_S4096x2048_S3x1024x2048_S4096x3x1024_1_2_0_01_n_n none (concatenate S4096x2048 1 [⟨S4096x1024, x⟩, ⟨S4096x1024, y⟩] concatenates_S4096x1024_S4096x1024_S4096x2048_d1) (extractStridedSlice S3x1024x2048 ![3, 0, 0] W slices_S6x1024x2048_S3x1024x2048_3_0_0)) (broadcastInDim S4096x3x1024 ![0, 1, 2] bcast_S1x3x1024_S4096x3x1024_0_1_2 (broadcastInDim S1x3x1024 ![1, 2] bcast_S3x1024_S1x3x1024_1_2 (extractStridedSlice S3x1024 ![3, 0] b slices_S6x1024_S3x1024_3_0)))

/-- The reference's gated update reading the planes of `z` in the order 0, 1, 2. -/
private def cell01 (z : FVec Ideal S4096x3x1024 .f32) (prev : FVec Ideal S4096x1024 .f32) : FVec Ideal S4096x1024 .f32 :=
  mulf (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 0, 0] z slices_S4096x3x1024_S4096x1x1024_0_0_0) shapeCasts_S4096x1x1024_S4096x1024))))) prev) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 1, 0] z slices_S4096x3x1024_S4096x1x1024_0_1_0) shapeCasts_S4096x1x1024_S4096x1024))))) (Host.tanh (shapeCast _ (extractStridedSlice S4096x1x1024 ![0, 2, 0] z slices_S4096x3x1024_S4096x1x1024_0_2_0) shapeCasts_S4096x1x1024_S4096x1024)))) (broadcastInDim S4096x1024 ![] bcast_S_S4096x1024 (constant S_ .f32 0x3F000000#32))

/-- The reference's gated update reading the planes of `z` in the order 1, 0, 2. -/
private def cell10 (z : FVec Ideal S4096x3x1024 .f32) (prev : FVec Ideal S4096x1024 .f32) : FVec Ideal S4096x1024 .f32 :=
  mulf (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 1, 0] z slices_S4096x3x1024_S4096x1x1024_0_1_0) shapeCasts_S4096x1x1024_S4096x1024))))) prev) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 0, 0] z slices_S4096x3x1024_S4096x1x1024_0_0_0) shapeCasts_S4096x1x1024_S4096x1024))))) (Host.tanh (shapeCast _ (extractStridedSlice S4096x1x1024 ![0, 2, 0] z slices_S4096x3x1024_S4096x1x1024_0_2_0) shapeCasts_S4096x1x1024_S4096x1024)))) (broadcastInDim S4096x1024 ![] bcast_S_S4096x1024 (constant S_ .f32 0x3F000000#32))

/-- The reference's projection: the product with the transposed vocabulary matrix, plus the vocabulary bias. -/
private def decArr (a : FVec Ideal S4096x1024 .f32) (Wd : FVec Ideal S32000x1024 .f32) (bd : FVec Ideal S32000 .f32) :
    FVec Ideal S4096x32000 .f32 :=
  addf (Host.dotGeneral dot_S4096x1024_S1024x32000_S4096x32000_1_0_0_1_n_n none a (transpose S1024x32000 [1, 0] Wd transposes_S32000x1024_S1024x32000_1_0)) (broadcastInDim S4096x32000 ![0, 1] bcast_S1x32000_S4096x32000_0_1 (broadcastInDim S1x32000 ![1] bcast_S32000_S1x32000_1 bd))

private theorem preArr0_apply (x y : FVec Ideal S4096x1024 .f32) (W : FVec Ideal S6x1024x2048 .f32) (b : FVec Ideal S6x1024 .f32)
    (r : Fin 4096) (g : Fin 3) (j : Fin 1024) : preArr0 x y W b (ix3 r g j) = pre x y W b (glo g) r j := by
  unfold preArr0 pre
  rw [addf_apply, dot3_apply, bias0_apply, sum_halves]
  simp only [cat_lo, cat_hi, sliceW0_apply]

private theorem preArr3_apply (x y : FVec Ideal S4096x1024 .f32) (W : FVec Ideal S6x1024x2048 .f32) (b : FVec Ideal S6x1024 .f32)
    (r : Fin 4096) (g : Fin 3) (j : Fin 1024) : preArr3 x y W b (ix3 r g j) = pre x y W b (ghi g) r j := by
  unfold preArr3 pre
  rw [addf_apply, dot3_apply, bias3_apply, sum_halves]
  simp only [cat_lo, cat_hi, sliceW3_apply]

private theorem cell01_apply (z : FVec Ideal S4096x3x1024 .f32) (prev : FVec Ideal S4096x1024 .f32) (r : Fin 4096) (j : Fin 1024) :
    cell01 z prev (ix2 r j) = mix (z (ix3 r 0 j)) (z (ix3 r 1 j)) (z (ix3 r 2 j)) (prev (ix2 r j)) := by
  unfold cell01 mix half
  rw [mulf_apply, addf_apply, mulf_apply, mulf_apply, sig_apply, sig_apply, tanh_apply, broadcastInDim_scalar_apply,
    gate_apply 0 z _ 0 rfl, gate_apply 1 z _ 1 rfl, gate_apply 2 z _ 2 rfl]
  rfl

private theorem cell10_apply (z : FVec Ideal S4096x3x1024 .f32) (prev : FVec Ideal S4096x1024 .f32) (r : Fin 4096) (j : Fin 1024) :
    cell10 z prev (ix2 r j) = mix (z (ix3 r 1 j)) (z (ix3 r 0 j)) (z (ix3 r 2 j)) (prev (ix2 r j)) := by
  unfold cell10 mix half
  rw [mulf_apply, addf_apply, mulf_apply, mulf_apply, sig_apply, sig_apply, tanh_apply, broadcastInDim_scalar_apply,
    gate_apply 1 z _ 1 rfl, gate_apply 0 z _ 0 rfl, gate_apply 2 z _ 2 rfl]
  rfl

/-- The reference's first update of a cell is the model's new cell array. -/
private theorem cell01_eq (x c h : FVec Ideal S4096x1024 .f32) (W : FVec Ideal S6x1024x2048 .f32) (b : FVec Ideal S6x1024 .f32) :
    cell01 (preArr0 x h W b) c = newC x c h W b := by
  funext i
  obtain ⟨r, j, rfl⟩ : ∃ (r : Fin 4096) (j : Fin 1024), i = ix2 r j := ⟨i 0, i 1, eq_ix2 i⟩
  rw [cell01_apply, preArr0_apply, preArr0_apply, preArr0_apply]
  rfl

/-- The reference's second update of a cell is the model's new hidden array. -/
private theorem cell10_eq (x c h : FVec Ideal S4096x1024 .f32) (W : FVec Ideal S6x1024x2048 .f32) (b : FVec Ideal S6x1024 .f32) :
    cell10 (preArr3 x (newC x c h W b) W b) h = newH x c h W b := by
  funext i
  obtain ⟨r, j, rfl⟩ : ∃ (r : Fin 4096) (j : Fin 1024), i = ix2 r j := ⟨i 0, i 1, eq_ix2 i⟩
  rw [cell10_apply, preArr3_apply, preArr3_apply, preArr3_apply]
  rfl

/-- The reference's projection is the model's. -/
private theorem decArr_eq (a : FVec Ideal S4096x1024 .f32) (Wd : FVec Ideal S32000x1024 .f32) (bd : FVec Ideal S32000 .f32) :
    decArr a Wd bd = decode a Wd bd := by
  funext i
  obtain ⟨r, n, rfl⟩ : ∃ (r : Fin 4096) (n : Fin 32000), i = ix2 r n := ⟨i 0, i 1, eq_ix2 i⟩
  show decArr a Wd bd (ix2 r n) = decodeAt a Wd bd r n
  unfold decArr decodeAt
  rw [addf_apply, dotD_apply, biasD_apply]
  refine congrArg (· + bd (ix1 n)) (Finset.sum_congr rfl fun k _ => ?_)
  rw [transD_apply]

/-! ## The reference's named terms in these definitions, and its five results as the model's formulas -/

section Assemble
variable (V0 : Valuation τ sig (Elt Ideal))

private theorem v13_eq : RunP.res_main_v13 V0 = preArr0 (RunP.res_main_v6 V0) (V0 (Proc.devRef .tc main_arg2)) (V0 (Proc.devRef .tc main_arg6)) (V0 (Proc.devRef .tc main_arg7)) := rfl

private theorem out37 : cell01 (RunP.res_main_v13 V0) (V0 (Proc.devRef .tc main_arg1)) = newC (RunP.res_main_v6 V0) (V0 (Proc.devRef .tc main_arg1)) (V0 (Proc.devRef .tc main_arg2)) (V0 (Proc.devRef .tc main_arg6)) (V0 (Proc.devRef .tc main_arg7)) := by
  rw [v13_eq]
  exact cell01_eq _ _ _ _ _

private theorem v44_eq : RunP.res_main_v44 V0 = preArr3 (RunP.res_main_v6 V0) (cell01 (RunP.res_main_v13 V0) (V0 (Proc.devRef .tc main_arg1))) (V0 (Proc.devRef .tc main_arg6)) (V0 (Proc.devRef .tc main_arg7)) := rfl

private theorem v68_eq : RunP.res_main_v68 V0 = cell10 (RunP.res_main_v44 V0) (V0 (Proc.devRef .tc main_arg2)) := rfl

private theorem out68 : RunP.res_main_v68 V0 = newH (RunP.res_main_v6 V0) (V0 (Proc.devRef .tc main_arg1)) (V0 (Proc.devRef .tc main_arg2)) (V0 (Proc.devRef .tc main_arg6)) (V0 (Proc.devRef .tc main_arg7)) := by
  rw [v68_eq, v44_eq, out37]
  exact cell10_eq _ _ _ _ _

private theorem v75_eq : RunP.res_main_v75 V0 = preArr0 (RunP.res_main_v68 V0) (V0 (Proc.devRef .tc main_arg4)) (V0 (Proc.devRef .tc main_arg8)) (V0 (Proc.devRef .tc main_arg9)) := rfl

private theorem out99 : cell01 (RunP.res_main_v75 V0) (V0 (Proc.devRef .tc main_arg3))
    = cell2C (RunP.res_main_v6 V0) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) := by
  rw [v75_eq, out68]
  exact cell01_eq _ _ _ _ _

private theorem v106_eq : RunP.res_main_v106 V0
    = preArr3 (RunP.res_main_v68 V0) (cell01 (RunP.res_main_v75 V0) (V0 (Proc.devRef .tc main_arg3))) (V0 (Proc.devRef .tc main_arg8)) (V0 (Proc.devRef .tc main_arg9)) := rfl

private theorem out130 : cell10 (RunP.res_main_v106 V0) (V0 (Proc.devRef .tc main_arg4))
    = cell2H (RunP.res_main_v6 V0) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) := by
  rw [v106_eq, out99]
  unfold cell2C cell2H
  rw [out68]
  exact cell10_eq _ _ _ _ _

private theorem out135 : decArr (cell10 (RunP.res_main_v106 V0) (V0 (Proc.devRef .tc main_arg4))) (V0 (Proc.devRef .tc main_arg10)) (V0 (Proc.devRef .tc main_arg11))
    = logits (RunP.res_main_v6 V0) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [out130]
  exact decArr_eq _ _ _

end Assemble

/-- The reference's run with each result at the model's formula of the launch arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v135)
        = logits (embOf (m ((c.tc : Thread nD τ).loc main_arg5)) (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_v37)
        = newC (embOf (m ((c.tc : Thread nD τ).loc main_arg5)) (m ((c.tc : Thread nD τ).loc main_arg0)))
            (m ((c.tc : Thread nD τ).loc main_arg1)) (m ((c.tc : Thread nD τ).loc main_arg2))
            (m ((c.tc : Thread nD τ).loc main_arg6)) (m ((c.tc : Thread nD τ).loc main_arg7))
      ∧ r.2.mem ((c.tc : Thread nD τ).loc main_v68)
        = newH (embOf (m ((c.tc : Thread nD τ).loc main_arg5)) (m ((c.tc : Thread nD τ).loc main_arg0)))
            (m ((c.tc : Thread nD τ).loc main_arg1)) (m ((c.tc : Thread nD τ).loc main_arg2))
            (m ((c.tc : Thread nD τ).loc main_arg6)) (m ((c.tc : Thread nD τ).loc main_arg7))
      ∧ r.2.mem ((c.tc : Thread nD τ).loc main_v99)
        = cell2C (embOf (m ((c.tc : Thread nD τ).loc main_arg5)) (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_v130)
        = cell2H (embOf (m ((c.tc : Thread nD τ).loc main_arg5)) (m ((c.tc : Thread nD τ).loc main_arg0)))
            (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ?_) (RunP.run (F := Ideal) m ρ)
  obtain ⟨h1, h2, h3, h4, h5, hrest⟩ := h c
  exact ⟨h1.trans (out135 _), h2.trans (out37 _), h3.trans (out68 _), h4.trans (out99 _), h5.trans (out130 _), hrest⟩

end Cert.ReferenceIdeal.RefRead

end
-- ==== Proof.lean ====
/-
  The certificate: a two-cell reversible gated recurrent model with a vocabulary projection, as three fused kernels,
  against its array-level reference, over the extended reals.

  Both programs embed the token indices by the same gather. Each cell computes six gate pre-activations
  `Σ_k x k · W g j k + Σ_k y k · W g j (1024 + k) + b g j` — the kernels as two matrix products of the operand blocks
  with quarters of the transposed, flattened weights, the reference as one product of the concatenated operands with
  the weights — and mixes them through the logistic function and the hyperbolic tangent; the projection is one more
  matrix product plus a bias row. A change of float format is the identity here, a product into a zero accumulator is
  a plain sum, and a sum over the 2048 concatenated columns is the sum of its two halves, which holds on the extended
  reals without any finiteness: the precondition is never opened.

  The frames of the two kernel programs are the generated ones; the reference's is its run with the results dropped
  (`RefRun`: the generated run's text, its operation list cut into five chunks). The kernel program's run is re-posted
  with its five result arrays named (`RunW`), each read back through the launches and host stretches to the model's
  formula of the launch arrays (`KernelValue`, over `Cell0`, `Cell1`, `Decode`, `CellBody`); the reference's results
  are read to the same formulas (`RefRead`); `Spec` holds the formulas.
-/
import proofs.«113015_j28484223107779_1_alg».proof.Defs
import proofs.«113015_j28484223107779_1_alg».proof.Proof.Gen.Kernel
import proofs.«113015_j28484223107779_1_alg».proof.Proof.Gen.Kernel.Skeleton
import proofs.«113015_j28484223107779_1_alg».proof.Proof.Gen.Kernel.Launch
import proofs.«113015_j28484223107779_1_alg».proof.Proof.Gen.Kernel.Points
import proofs.«113015_j28484223107779_1_alg».proof.Proof.Gen.Kernel.Frame
import proofs.«113015_j28484223107779_1_alg».proof.Proof.Gen.KernelIdeal
import proofs.«113015_j28484223107779_1_alg».proof.Proof.Gen.KernelIdeal.Skeleton
import proofs.«113015_j28484223107779_1_alg».proof.Proof.Gen.KernelIdeal.Launch
import proofs.«113015_j28484223107779_1_alg».proof.Proof.Gen.KernelIdeal.Points
import proofs.«113015_j28484223107779_1_alg».proof.Proof.Gen.KernelIdeal.Frame
import proofs.«113015_j28484223107779_1_alg».proof.Proof.Gen.ReferenceIdeal
import proofs.«113015_j28484223107779_1_alg».proof.Proof.RefRun
import proofs.«113015_j28484223107779_1_alg».proof.Proof.Gen.Pre_finite_inputs
import proofs.«113015_j28484223107779_1_alg».proof.Proof.Spec
import proofs.«113015_j28484223107779_1_alg».proof.Proof.RunW
import proofs.«113015_j28484223107779_1_alg».proof.Proof.KernelValue
import proofs.«113015_j28484223107779_1_alg».proof.Proof.RefRead
import Idealize.ShloMosaic.Adequacy
import Idealize.ShloMosaic.Init

noncomputable section

namespace Cert.Proof

open Idealize.ShloMosaic Idealize.SL.Sem Cert.Spec

/-- Both programs' embedding lookups are the same operations of the table and the indices. -/
theorem embOf_eq (tbl : Cert.KernelIdeal.S32000x1024.Idx → EReal) (ids : Cert.KernelIdeal.S4096.Idx → BitVec 32) :
    Cert.ReferenceIdeal.RefRead.embOf tbl ids = Cert.KernelIdeal.KValue.embOf tbl ids := rfl

theorem frame_k : Cert.frame_Kernel := fun m ρ _ => Cert.Kernel.Gen.frame m ρ

theorem frame_ki : Cert.frame_KernelIdeal := fun m ρ _ => Cert.KernelIdeal.Gen.frame m ρ

/-- The reference's frame: its run, read back chunk by chunk, with the five results dropped. -/
theorem frame_ri : Cert.frame_ReferenceIdeal := fun m ρ _ =>
  (θ_run Cert.ReferenceIdeal.defs _ _).mono (fun _ h c => (h c).2.2.2.2.2) (Cert.ReferenceIdeal.RunP.run (F := Ideal) m ρ)

/-- The ideal pass rewrote no operation. -/
theorem preserves : Cert.preserves_Kernel_KernelIdeal := trivial

/-- Both programs end with the model's five arrays of the launch arrays: the kernel program's results read back through
    its launches, the reference's through its host operations, the launch arrays agreeing. -/
theorem algebraic : Cert.algebraic_KernelIdeal_ReferenceIdeal := by
  intro m ρ m' ρ' _ hagree
  refine ⟨fun c => logits (Cert.KernelIdeal.KValue.embOf (m ((c.tc : Thread Cert.KernelIdeal.nD Cert.KernelIdeal.τ).loc Cert.KernelIdeal.main_arg5)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => newC (Cert.KernelIdeal.KValue.embOf (m ((c.tc : Thread Cert.KernelIdeal.nD Cert.KernelIdeal.τ).loc Cert.KernelIdeal.main_arg5)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => newH (Cert.KernelIdeal.KValue.embOf (m ((c.tc : Thread Cert.KernelIdeal.nD Cert.KernelIdeal.τ).loc Cert.KernelIdeal.main_arg5)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => cell2C (Cert.KernelIdeal.KValue.embOf (m ((c.tc : Thread Cert.KernelIdeal.nD Cert.KernelIdeal.τ).loc Cert.KernelIdeal.main_arg5)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => cell2H (Cert.KernelIdeal.KValue.embOf (m ((c.tc : Thread Cert.KernelIdeal.nD Cert.KernelIdeal.τ).loc Cert.KernelIdeal.main_arg5)) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ?_) (Cert.KernelIdeal.RunW.run (F := Ideal) m ρ)
    obtain ⟨h0, h1, h2, h3, h4, hargs⟩ := h c
    exact ⟨h0.trans (Cert.KernelIdeal.KValue.res_v21 m ρ c), h1.trans (Cert.KernelIdeal.KValue.res_v11_1 m ρ c),
      h2.trans (Cert.KernelIdeal.KValue.res_v11_0 m ρ c), h3.trans (Cert.KernelIdeal.KValue.res_v16_1 m ρ c),
      h4.trans (Cert.KernelIdeal.KValue.res_v16_0 m ρ c), hargs⟩
  · refine (θ_run Cert.ReferenceIdeal.defs _ _).mono (fun _ h c => ?_) (Cert.ReferenceIdeal.RefRead.run m' ρ')
    obtain ⟨h0, h1, h2, h3, h4, hargs⟩ := h c
    obtain ⟨a0, a1, a2, a3, a4, a5, a6, a7, a8, a9, a10, a11⟩ := hagree c
    simp only [a0, a1, a2, a3, a4, a5, a6, a7, a8, a9, a10, a11, embOf_eq] at h0 h1 h2 h3 h4
    exact ⟨h0, h1, h2, h3, h4, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
